-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S500000 : Shape := ⟨1, ![500000]⟩
abbrev S125000 : Shape := ⟨1, ![125000]⟩
abbrev S32000 : Shape := ⟨1, ![32000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg13 : FVec F S128x256 .f32) (main_arg14 : FVec F S128x256 .f32) (main_arg15 : FVec F S128 .f32) (main_v33 : IVec S_ 1) : IVec S_ 1 :=
  let main_v34 : FVec F S128x256 .f32 := Host.absf main_arg13
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x256 .f32 := Host.absf main_arg14
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S128x256 .f32) (main_arg14 : FVec F S128x256 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S200000x128 .f32) (main_arg1 : IVec S500000 32) (main_arg2 : IVec S500000 32) (main_arg3 : IVec S125000 32) (main_arg4 : IVec S125000 32) (main_arg5 : IVec S32000 32) (main_arg6 : IVec S32000 32) (main_arg7 : FVec F S256x128 .f32) (main_arg8 : FVec F S256x128 .f32) (main_arg9 : FVec F S256 .f32) (main_arg10 : FVec F S256x256 .f32) (main_arg11 : FVec F S256x256 .f32) (main_arg12 : FVec F S256 .f32) (main_arg13 : FVec F S128x256 .f32) (main_arg14 : FVec F S128x256 .f32) (main_arg15 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S256x128 .f32 := Host.absf main_arg7
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg8
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S200000x128 : Shape := ⟨2, ![200000, 128]⟩
abbrev S500000 : Shape := ⟨1, ![500000]⟩
abbrev S125000 : Shape := ⟨1, ![125000]⟩
abbrev S32000 : Shape := ⟨1, ![32000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S50000x128 : Shape := ⟨2, ![50000, 128]⟩
abbrev S50000x1 : Shape := ⟨2, ![50000, 1]⟩
abbrev S51200x128 : Shape := ⟨2, ![51200, 128]⟩
abbrev S51200x256 : Shape := ⟨2, ![51200, 256]⟩
abbrev S2048x128 : Shape := ⟨2, ![2048, 128]⟩
abbrev S2048x256 : Shape := ⟨2, ![2048, 256]⟩
abbrev S1x256 : Shape := ⟨2, ![1, 256]⟩
abbrev S50000x256 : Shape := ⟨2, ![50000, 256]⟩
abbrev S125000x1 : Shape := ⟨2, ![125000, 1]⟩
abbrev S125000x256 : Shape := ⟨2, ![125000, 256]⟩
abbrev S12500x256 : Shape := ⟨2, ![12500, 256]⟩
abbrev S12500x1 : Shape := ⟨2, ![12500, 1]⟩
abbrev S14336x256 : Shape := ⟨2, ![14336, 256]⟩
abbrev S32000x1 : Shape := ⟨2, ![32000, 1]⟩
abbrev S32000x256 : Shape := ⟨2, ![32000, 256]⟩
abbrev S3200x256 : Shape := ⟨2, ![3200, 256]⟩
abbrev S3200x1 : Shape := ⟨2, ![3200, 1]⟩
abbrev S3200x128 : Shape := ⟨2, ![3200, 128]⟩
abbrev S1x128 : Shape := ⟨2, ![1, 128]⟩

abbrev nBuf : Space → Nat
  | .hbm => 120
  | .vmem => 24
  | .smem => 0
  | _ => 0

abbrev bufTy : (tb : Table) → Fin (tcTables nBuf tb) → BufTy
  | .hbm, ⟨0, _⟩ => ⟨S200000x128, .f32⟩
  | .hbm, ⟨1, _⟩ => ⟨S500000, .i32⟩
  | .hbm, ⟨2, _⟩ => ⟨S500000, .i32⟩
  | .hbm, ⟨3, _⟩ => ⟨S125000, .i32⟩
  | .hbm, ⟨4, _⟩ => ⟨S125000, .i32⟩
  | .hbm, ⟨5, _⟩ => ⟨S32000, .i32⟩
  | .hbm, ⟨6, _⟩ => ⟨S32000, .i32⟩
  | .hbm, ⟨7, _⟩ => ⟨S256x128, .f32⟩
  | .hbm, ⟨8, _⟩ => ⟨S256x128, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S128x256, .f32⟩
  | .hbm, ⟨14, _⟩ => ⟨S128x256, .f32⟩
  | .hbm, ⟨15, _⟩ => ⟨S128, .f32⟩
  | .hbm, ⟨16, _⟩ => ⟨S128x256, .f32⟩
  | .hbm, ⟨17, _⟩ => ⟨S128x256, .bf16⟩
  | .hbm, ⟨18, _⟩ => ⟨S128x256, .f32⟩
  | .hbm, ⟨19, _⟩ => ⟨S128x256, .bf16⟩
  | .hbm, ⟨20, _⟩ => ⟨S256x256, .f32⟩
  | .hbm, ⟨21, _⟩ => ⟨S256x256, .bf16⟩
  | .hbm, ⟨22, _⟩ => ⟨S256x256, .f32⟩
  | .hbm, ⟨23, _⟩ => ⟨S256x256, .bf16⟩
  | .hbm, ⟨24, _⟩ => ⟨S256x128, .f32⟩
  | .hbm, ⟨25, _⟩ => ⟨S256x128, .bf16⟩
  | .hbm, ⟨26, _⟩ => ⟨S256x128, .f32⟩
  | .hbm, ⟨27, _⟩ => ⟨S256x128, .bf16⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S_, .f32⟩
  | .hbm, ⟨38, _⟩ => ⟨S50000x128, .f32⟩
  | .hbm, ⟨39, _⟩ => ⟨S500000x1, .i32⟩
  | .hbm, ⟨40, _⟩ => ⟨S50000x128, .f32⟩
  | .hbm, ⟨41, _⟩ => ⟨S_, .f32⟩
  | .hbm, ⟨42, _⟩ => ⟨S500000x1, .f32⟩
  | .hbm, ⟨43, _⟩ => ⟨S_, .f32⟩
  | .hbm, ⟨44, _⟩ => ⟨S50000x1, .f32⟩
  | .hbm, ⟨45, _⟩ => ⟨S500000x1, .i32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S_, .f32⟩
  | .hbm, ⟨55, _⟩ => ⟨S51200x128, .f32⟩
  | .hbm, ⟨56, _⟩ => ⟨S_, .i32⟩
  | .hbm, ⟨57, _⟩ => ⟨S_, .f32⟩
  | .hbm, ⟨58, _⟩ => ⟨S51200x128, .f32⟩
  | .hbm, ⟨59, _⟩ => ⟨S51200x256, .f32⟩
  | .hbm, ⟨60, _⟩ => ⟨S50000x256, .f32⟩
  | .hbm, ⟨61, _⟩ => ⟨S_, .i32⟩
  | .hbm, ⟨62, _⟩ => ⟨S125000, .i32⟩
  | .hbm, ⟨63, _⟩ => ⟨S125000, .i1⟩
  | .hbm, ⟨64, _⟩ => ⟨S_, .i32⟩
  | .hbm, ⟨65, _⟩ => ⟨S125000, .i32⟩
  | .hbm, ⟨66, _⟩ => ⟨S125000, .i32⟩
  | .hbm, ⟨67, _⟩ => ⟨S125000, .i32⟩
  | .hbm, ⟨68, _⟩ => ⟨S125000x1, .i32⟩
  | .hbm, ⟨69, _⟩ => ⟨S125000x256, .f32⟩
  | .hbm, ⟨70, _⟩ => ⟨S_, .f32⟩
  | .hbm, ⟨71, _⟩ => ⟨S12500x256, .f32⟩
  | .hbm, ⟨72, _⟩ => ⟨S125000x1, .i32⟩
  | .hbm, ⟨73, _⟩ => ⟨S12500x256, .f32⟩
  | .hbm, ⟨74, _⟩ => ⟨S_, .f32⟩
  | .hbm, ⟨75, _⟩ => ⟨S125000x1, .f32⟩
  | .hbm, ⟨76, _⟩ => ⟨S_, .f32⟩
  | .hbm, ⟨77, _⟩ => ⟨S12500x1, .f32⟩
  | .hbm, ⟨78, _⟩ => ⟨S125000x1, .i32⟩
  | .hbm, ⟨79, _⟩ => ⟨S12500x1, .f32⟩
  | .hbm, ⟨80, _⟩ => ⟨S_, .f32⟩
  | .hbm, ⟨81, _⟩ => ⟨S12500x1, .f32⟩
  | .hbm, ⟨82, _⟩ => ⟨S12500x1, .f32⟩
  | .hbm, ⟨83, _⟩ => ⟨S12500x256, .f32⟩
  | .hbm, ⟨84, _⟩ => ⟨S12500x256, .f32⟩
  | .hbm, ⟨85, _⟩ => ⟨S12500x256, .f32⟩
  | .hbm, ⟨86, _⟩ => ⟨S_, .i32⟩
  | .hbm, ⟨87, _⟩ => ⟨S_, .f32⟩
  | .hbm, ⟨88, _⟩ => ⟨S14336x256, .f32⟩
  | .hbm, ⟨89, _⟩ => ⟨S_, .i32⟩
  | .hbm, ⟨90, _⟩ => ⟨S_, .f32⟩
  | .hbm, ⟨91, _⟩ => ⟨S14336x256, .f32⟩
  | .hbm, ⟨92, _⟩ => ⟨S14336x256, .f32⟩
  | .hbm, ⟨93, _⟩ => ⟨S12500x256, .f32⟩
  | .hbm, ⟨94, _⟩ => ⟨S_, .i32⟩
  | .hbm, ⟨95, _⟩ => ⟨S32000, .i32⟩
  | .hbm, ⟨96, _⟩ => ⟨S32000, .i1⟩
  | .hbm, ⟨97, _⟩ => ⟨S_, .i32⟩
  | .hbm, ⟨98, _⟩ => ⟨S32000, .i32⟩
  | .hbm, ⟨99, _⟩ => ⟨S32000, .i32⟩
  | .hbm, ⟨100, _⟩ => ⟨S32000, .i32⟩
  | .hbm, ⟨101, _⟩ => ⟨S32000x1, .i32⟩
  | .hbm, ⟨102, _⟩ => ⟨S32000x256, .f32⟩
  | .hbm, ⟨103, _⟩ => ⟨S_, .f32⟩
  | .hbm, ⟨104, _⟩ => ⟨S3200x256, .f32⟩
  | .hbm, ⟨105, _⟩ => ⟨S32000x1, .i32⟩
  | .hbm, ⟨106, _⟩ => ⟨S3200x256, .f32⟩
  | .hbm, ⟨107, _⟩ => ⟨S_, .f32⟩
  | .hbm, ⟨108, _⟩ => ⟨S32000x1, .f32⟩
  | .hbm, ⟨109, _⟩ => ⟨S_, .f32⟩
  | .hbm, ⟨110, _⟩ => ⟨S3200x1, .f32⟩
  | .hbm, ⟨111, _⟩ => ⟨S32000x1, .i32⟩
  | .hbm, ⟨112, _⟩ => ⟨S3200x1, .f32⟩
  | .hbm, ⟨113, _⟩ => ⟨S_, .f32⟩
  | .hbm, ⟨114, _⟩ => ⟨S3200x1, .f32⟩
  | .hbm, ⟨115, _⟩ => ⟨S3200x1, .f32⟩
  | .hbm, ⟨116, _⟩ => ⟨S3200x256, .f32⟩
  | .hbm, ⟨117, _⟩ => ⟨S3200x256, .f32⟩
  | .hbm, ⟨118, _⟩ => ⟨S3200x256, .f32⟩
  | .hbm, ⟨119, _⟩ => ⟨S3200x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .bf16⟩
  | .local _ .vmem, ⟨5, _⟩ => ⟨S128x256, .bf16⟩
  | .local _ .vmem, ⟨6, _⟩ => ⟨S256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x256, .bf16⟩
  | .local _ .vmem, ⟨14, _⟩ => ⟨S256x256, .bf16⟩
  | .local _ .vmem, ⟨15, _⟩ => ⟨S256, .f32⟩
  | .local _ .vmem, ⟨16, _⟩ => ⟨S2048x256, .f32⟩
  | .local _ .vmem, ⟨17, _⟩ => ⟨S2048x256, .f32⟩
  | .local _ .vmem, ⟨18, _⟩ => ⟨S3200x256, .f32⟩
  | .local _ .vmem, ⟨19, _⟩ => ⟨S3200x256, .f32⟩
  | .local _ .vmem, ⟨20, _⟩ => ⟨S256x128, .bf16⟩
  | .local _ .vmem, ⟨21, _⟩ => ⟨S256x128, .bf16⟩
  | .local _ .vmem, ⟨22, _⟩ => ⟨S128, .f32⟩
  | .local _ .vmem, ⟨23, _⟩ => ⟨S3200x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_call0_v0 : Ref sig .tc := ⟨.hbm, 54, rfl⟩
abbrev main_v31 : Ref sig .tc := ⟨.hbm, 55, rfl⟩
abbrev main_c_5 : Ref sig .tc := ⟨.hbm, 56, rfl⟩
abbrev main_call1_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_call2_v0 : Ref sig .tc := ⟨.hbm, 87, rfl⟩
abbrev main_v54 : Ref sig .tc := ⟨.hbm, 88, rfl⟩
abbrev main_c_13 : Ref sig .tc := ⟨.hbm, 89, rfl⟩
abbrev main_call3_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_14 : Ref sig .tc := ⟨.hbm, 94, rfl⟩
abbrev main_v58 : Ref sig .tc := ⟨.hbm, 95, rfl⟩
abbrev main_v59 : Ref sig .tc := ⟨.hbm, 96, rfl⟩
abbrev main_c_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_16 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_19 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S3200x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S3200x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3200x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  transposes_S256x128_S128x256_1_0 : S256x128.Transposes [1, 0] S128x256
  bitsLt_bf16_f32 : FTy.bits .bf16 < FTy.bits .f32
  transposes_S256x256_S256x256_1_0 : S256x256.Transposes [1, 0] S256x256
  transposes_S128x256_S256x128_1_0 : S128x256.Transposes [1, 0] S256x128
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S200000x128_S50000x128_0_0 : S200000x128.Slices ![0, 0] S50000x128
  pads_S50000x128_S51200x128_012000_000 : S50000x128.Pads (![0, 0] : Fin 2 → Nat) ![1200, 0] ![0, 0] S51200x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S51200x256_S50000x256_0_0 : S51200x256.Slices ![0, 0] S50000x256
  bcast_S_S125000 : S_.BroadcastsInDim S125000 (![] : Fin 0 → Fin S125000.rank)
  bcast_S125000_S125000x1_0 : S125000.BroadcastsInDim S125000x1 (![0] : Fin 1 → Fin S125000x1.rank)
  bcast_S_S12500x256 : S_.BroadcastsInDim S12500x256 (![] : Fin 0 → Fin S12500x256.rank)
  bcast_S_S125000x1 : S_.BroadcastsInDim S125000x1 (![] : Fin 0 → Fin S125000x1.rank)
  bcast_S_S12500x1 : S_.BroadcastsInDim S12500x1 (![] : Fin 0 → Fin S12500x1.rank)
  bcast_S12500x1_S12500x256_0_1 : S12500x1.BroadcastsInDim S12500x256 (![0, 1] : Fin 2 → Fin S12500x256.rank)
  slices_S50000x256_S12500x256_0_0 : S50000x256.Slices ![0, 0] S12500x256
  pads_S12500x256_S14336x256_018360_000 : S12500x256.Pads (![0, 0] : Fin 2 → Nat) ![1836, 0] ![0, 0] S14336x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S14336x256_S12500x256_0_0 : S14336x256.Slices ![0, 0] S12500x256
  bcast_S_S32000 : S_.BroadcastsInDim S32000 (![] : Fin 0 → Fin S32000.rank)
  bcast_S32000_S32000x1_0 : S32000.BroadcastsInDim S32000x1 (![0] : Fin 1 → Fin S32000x1.rank)
  bcast_S_S3200x256 : S_.BroadcastsInDim S3200x256 (![] : Fin 0 → Fin S3200x256.rank)
  bcast_S_S32000x1 : S_.BroadcastsInDim S32000x1 (![] : Fin 0 → Fin S32000x1.rank)
  bcast_S_S3200x1 : S_.BroadcastsInDim S3200x1 (![] : Fin 0 → Fin S3200x1.rank)
  bcast_S3200x1_S3200x256_0_1 : S3200x1.BroadcastsInDim S3200x256 (![0, 1] : Fin 2 → Fin S3200x256.rank)
  slices_S12500x256_S3200x256_0_0 : S12500x256.Slices ![0, 0] S3200x256
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  gather_S200000x128_S500000x1_S500000x128_1_0_n_n_0_1_1128_wf : GatherDims.WF S200000x128 S500000x1 S500000x128 [1] [0] [] [0] [] 1 ![1, 128]
  scatter_S50000x128_S500000x1_S500000x128_1_0_0_1_wf : ScatterDims.WF S50000x128 S500000x1 S500000x128 [1] [0] [0] 1
  scatter_S50000x1_S500000x1_S500000x1_1_0_0_1_wf : ScatterDims.WF S50000x1 S500000x1 S500000x1 [1] [0] [0] 1
  dot_S2048x128_S128x256_S2048x256_1_0_0_1_n_n_wf : DotDims.WF S2048x128 S128x256 S2048x256 [1] [0] [0] [1] [] []
  gather_S50000x256_S125000x1_S125000x256_1_0_n_n_0_1_1256_wf : GatherDims.WF S50000x256 S125000x1 S125000x256 [1] [0] [] [0] [] 1 ![1, 256]
  scatter_S12500x256_S125000x1_S125000x256_1_0_0_1_wf : ScatterDims.WF S12500x256 S125000x1 S125000x256 [1] [0] [0] 1
  scatter_S12500x1_S125000x1_S125000x1_1_0_0_1_wf : ScatterDims.WF S12500x1 S125000x1 S125000x1 [1] [0] [0] 1
  dot_S2048x256_S256x256_S2048x256_1_0_0_1_n_n_wf : DotDims.WF S2048x256 S256x256 S2048x256 [1] [0] [0] [1] [] []
  gather_S12500x256_S32000x1_S32000x256_1_0_n_n_0_1_1256_wf : GatherDims.WF S12500x256 S32000x1 S32000x256 [1] [0] [] [0] [] 1 ![1, 256]
  scatter_S3200x256_S32000x1_S32000x256_1_0_0_1_wf : ScatterDims.WF S3200x256 S32000x1 S32000x256 [1] [0] [0] 1
  scatter_S3200x1_S32000x1_S32000x1_1_0_0_1_wf : ScatterDims.WF S3200x1 S32000x1 S32000x1 [1] [0] [0] 1
  dot_S3200x256_S256x128_S3200x128_1_0_0_1_n_n_wf : DotDims.WF S3200x256 S256x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .f32 = 32 ∨ (Rect.block (s := S51200x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S51200x256.size a
  hwx0_5 : ∀ i : grid0.Coords, EltTy.bits .f32 = 32 ∨ (Rect.block (s := S51200x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S14336x256.size a
  hwx1_0 : ∀ i : grid1.Coords, EltTy.bits .f32 = 32 ∨ (Rect.block (s := S14336x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S14336x256.size a
  hwx1_1 : ∀ i : grid1.Coords, EltTy.bits .f32 = 32 ∨ (Rect.block (s := S14336x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S14336x256.size a
  hwx1_5 : ∀ i : grid1.Coords, EltTy.bits .f32 = 32 ∨ (Rect.block (s := S14336x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S3200x256.size a ≤ S3200x256.size a
  hwx2_0 : ∀ i : grid2.Coords, EltTy.bits .f32 = 32 ∨ (Rect.block (s := S3200x256) S3200x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S3200x256.size a ≤ S3200x256.size a
  hwx2_1 : ∀ i : grid2.Coords, EltTy.bits .f32 = 32 ∨ (Rect.block (s := S3200x256) S3200x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S3200x128.size a ≤ S3200x128.size a
  hwx2_5 : ∀ i : grid2.Coords, EltTy.bits .f32 = 32 ∨ (Rect.block (s := S3200x128) S3200x128.size (cc2_transform_5 i) (hinb2_5 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S50000x256_S125000x1_S125000x256_1_0_n_n_0_1_1256 : GatherDims S50000x256 S125000x1 S125000x256 where
  offsetDims := [1]
  collapsedSliceDims := [0]
  operandBatchingDims := []
  startIndicesBatchingDims := []
  startIndexMap := [0]
  indexVectorDim := 1
  sliceSizes := ![1, 256]
  wf := gather_S50000x256_S125000x1_S125000x256_1_0_n_n_0_1_1256_wf
def scatter_S12500x256_S125000x1_S125000x256_1_0_0_1 : ScatterDims S12500x256 S125000x1 S125000x256 where
  updateWindowDims := [1]
  insertedWindowDims := [0]
  scatterDimsToOperandDims := [0]
  indexVectorDim := 1
  wf := scatter_S12500x256_S125000x1_S125000x256_1_0_0_1_wf
def scatter_S12500x1_S125000x1_S125000x1_1_0_0_1 : ScatterDims S12500x1 S125000x1 S125000x1 where
  updateWindowDims := [1]
  insertedWindowDims := [0]
  scatterDimsToOperandDims := [0]
  indexVectorDim := 1
  wf := scatter_S12500x1_S125000x1_S125000x1_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S12500x256_S32000x1_S32000x256_1_0_n_n_0_1_1256 : GatherDims S12500x256 S32000x1 S32000x256 where
  offsetDims := [1]
  collapsedSliceDims := [0]
  operandBatchingDims := []
  startIndicesBatchingDims := []
  startIndexMap := [0]
  indexVectorDim := 1
  sliceSizes := ![1, 256]
  wf := gather_S12500x256_S32000x1_S32000x256_1_0_n_n_0_1_1256_wf
def scatter_S3200x256_S32000x1_S32000x256_1_0_0_1 : ScatterDims S3200x256 S32000x1 S32000x256 where
  updateWindowDims := [1]
  insertedWindowDims := [0]
  scatterDimsToOperandDims := [0]
  indexVectorDim := 1
  wf := scatter_S3200x256_S32000x1_S32000x256_1_0_0_1_wf
def scatter_S3200x1_S32000x1_S32000x1_1_0_0_1 : ScatterDims S3200x1 S32000x1 S32000x1 where
  updateWindowDims := [1]
  insertedWindowDims := [0]
  scatterDimsToOperandDims := [0]
  indexVectorDim := 1
  wf := scatter_S3200x1_S32000x1_S32000x1_1_0_0_1_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf

abbrev win0_0 : Pipeline.Window sig grid0 :=
  Pipeline.Window.ofSpec (Memref.whole main_v31) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v75) S3200x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v76) S3200x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S3200x128.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S200000x128 : Shape := ⟨2, ![200000, 128]⟩
abbrev S500000 : Shape := ⟨1, ![500000]⟩
abbrev S125000 : Shape := ⟨1, ![125000]⟩
abbrev S32000 : Shape := ⟨1, ![32000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S50000x128 : Shape := ⟨2, ![50000, 128]⟩
abbrev S_ : Shape := ⟨0, ![]⟩
abbrev S500000x1 : Shape := ⟨2, ![500000, 1]⟩
abbrev S500000x128 : Shape := ⟨2, ![500000, 128]⟩
abbrev S50000x1 : Shape := ⟨2, ![50000, 1]⟩
abbrev S50000x256 : Shape := ⟨2, ![50000, 256]⟩
abbrev S1x256 : Shape := ⟨2, ![1, 256]⟩
abbrev S12500x256 : Shape := ⟨2, ![12500, 256]⟩
abbrev S125000x1 : Shape := ⟨2, ![125000, 1]⟩
abbrev S125000x256 : Shape := ⟨2, ![125000, 256]⟩
abbrev S12500x1 : Shape := ⟨2, ![12500, 1]⟩
abbrev S3200x256 : Shape := ⟨2, ![3200, 256]⟩
abbrev S32000x1 : Shape := ⟨2, ![32000, 1]⟩
abbrev S32000x256 : Shape := ⟨2, ![32000, 256]⟩
abbrev S3200x1 : Shape := ⟨2, ![3200, 1]⟩
abbrev S3200x128 : Shape := ⟨2, ![3200, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S500000, .i32⟩
  | .hbm, ⟨2, _⟩ => ⟨S500000, .i32⟩
  | .hbm, ⟨3, _⟩ => ⟨S125000, .i32⟩
  | .hbm, ⟨4, _⟩ => ⟨S125000, .i32⟩
  | .hbm, ⟨5, _⟩ => ⟨S32000, .i32⟩
  | .hbm, ⟨6, _⟩ => ⟨S32000, .i32⟩
  | .hbm, ⟨7, _⟩ => ⟨S256x128, .f32⟩
  | .hbm, ⟨8, _⟩ => ⟨S256x128, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S128x256, .f32⟩
  | .hbm, ⟨14, _⟩ => ⟨S128x256, .f32⟩
  | .hbm, ⟨15, _⟩ => ⟨S128, .f32⟩
  | .hbm, ⟨16, _⟩ => ⟨S50000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S50000x128, .f32⟩
  | .hbm, ⟨28, _⟩ => ⟨S500000x1, .i32⟩
  | .hbm, ⟨29, _⟩ => ⟨S50000x128, .f32⟩
  | .hbm, ⟨30, _⟩ => ⟨S_, .f32⟩
  | .hbm, ⟨31, _⟩ => ⟨S500000x1, .f32⟩
  | .hbm, ⟨32, _⟩ => ⟨S_, .f32⟩
  | .hbm, ⟨33, _⟩ => ⟨S50000x1, .f32⟩
  | .hbm, ⟨34, _⟩ => ⟨S500000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S128x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S12500x256, .f32⟩
  | .hbm, ⟨53, _⟩ => ⟨S_, .i32⟩
  | .hbm, ⟨54, _⟩ => ⟨S125000, .i32⟩
  | .hbm, ⟨55, _⟩ => ⟨S125000, .i1⟩
  | .hbm, ⟨56, _⟩ => ⟨S_, .i32⟩
  | .hbm, ⟨57, _⟩ => ⟨S125000, .i32⟩
  | .hbm, ⟨58, _⟩ => ⟨S125000, .i32⟩
  | .hbm, ⟨59, _⟩ => ⟨S125000, .i32⟩
  | .hbm, ⟨60, _⟩ => ⟨S125000x1, .i32⟩
  | .hbm, ⟨61, _⟩ => ⟨S125000x256, .f32⟩
  | .hbm, ⟨62, _⟩ => ⟨S_, .f32⟩
  | .hbm, ⟨63, _⟩ => ⟨S12500x256, .f32⟩
  | .hbm, ⟨64, _⟩ => ⟨S125000x1, .i32⟩
  | .hbm, ⟨65, _⟩ => ⟨S12500x256, .f32⟩
  | .hbm, ⟨66, _⟩ => ⟨S_, .f32⟩
  | .hbm, ⟨67, _⟩ => ⟨S125000x1, .f32⟩
  | .hbm, ⟨68, _⟩ => ⟨S_, .f32⟩
  | .hbm, ⟨69, _⟩ => ⟨S12500x1, .f32⟩
  | .hbm, ⟨70, _⟩ => ⟨S125000x1, .i32⟩
  | .hbm, ⟨71, _⟩ => ⟨S12500x1, .f32⟩
  | .hbm, ⟨72, _⟩ => ⟨S_, .f32⟩
  | .hbm, ⟨73, _⟩ => ⟨S12500x1, .f32⟩
  | .hbm, ⟨74, _⟩ => ⟨S12500x1, .f32⟩
  | .hbm, ⟨75, _⟩ => ⟨S12500x256, .f32⟩
  | .hbm, ⟨76, _⟩ => ⟨S12500x256, .f32⟩
  | .hbm, ⟨77, _⟩ => ⟨S256x256, .f32⟩
  | .hbm, ⟨78, _⟩ => ⟨S12500x256, .f32⟩
  | .hbm, ⟨79, _⟩ => ⟨S1x256, .f32⟩
  | .hbm, ⟨80, _⟩ => ⟨S12500x256, .f32⟩
  | .hbm, ⟨81, _⟩ => ⟨S12500x256, .f32⟩
  | .hbm, ⟨82, _⟩ => ⟨S256x256, .f32⟩
  | .hbm, ⟨83, _⟩ => ⟨S12500x256, .f32⟩
  | .hbm, ⟨84, _⟩ => ⟨S12500x256, .f32⟩
  | .hbm, ⟨85, _⟩ => ⟨S_, .f32⟩
  | .hbm, ⟨86, _⟩ => ⟨S12500x256, .f32⟩
  | .hbm, ⟨87, _⟩ => ⟨S12500x256, .f32⟩
  | .hbm, ⟨88, _⟩ => ⟨S3200x256, .f32⟩
  | .hbm, ⟨89, _⟩ => ⟨S_, .i32⟩
  | .hbm, ⟨90, _⟩ => ⟨S32000, .i32⟩
  | .hbm, ⟨91, _⟩ => ⟨S32000, .i1⟩
  | .hbm, ⟨92, _⟩ => ⟨S_, .i32⟩
  | .hbm, ⟨93, _⟩ => ⟨S32000, .i32⟩
  | .hbm, ⟨94, _⟩ => ⟨S32000, .i32⟩
  | .hbm, ⟨95, _⟩ => ⟨S32000, .i32⟩
  | .hbm, ⟨96, _⟩ => ⟨S32000x1, .i32⟩
  | .hbm, ⟨97, _⟩ => ⟨S32000x256, .f32⟩
  | .hbm, ⟨98, _⟩ => ⟨S_, .f32⟩
  | .hbm, ⟨99, _⟩ => ⟨S3200x256, .f32⟩
  | .hbm, ⟨100, _⟩ => ⟨S32000x1, .i32⟩
  | .hbm, ⟨101, _⟩ => ⟨S3200x256, .f32⟩
  | .hbm, ⟨102, _⟩ => ⟨S_, .f32⟩
  | .hbm, ⟨103, _⟩ => ⟨S32000x1, .f32⟩
  | .hbm, ⟨104, _⟩ => ⟨S_, .f32⟩
  | .hbm, ⟨105, _⟩ => ⟨S3200x1, .f32⟩
  | .hbm, ⟨106, _⟩ => ⟨S32000x1, .i32⟩
  | .hbm, ⟨107, _⟩ => ⟨S3200x1, .f32⟩
  | .hbm, ⟨108, _⟩ => ⟨S_, .f32⟩
  | .hbm, ⟨109, _⟩ => ⟨S3200x1, .f32⟩
  | .hbm, ⟨110, _⟩ => ⟨S3200x1, .f32⟩
  | .hbm, ⟨111, _⟩ => ⟨S3200x256, .f32⟩
  | .hbm, ⟨112, _⟩ => ⟨S3200x256, .f32⟩
  | .hbm, ⟨113, _⟩ => ⟨S256x128, .f32⟩
  | .hbm, ⟨114, _⟩ => ⟨S3200x128, .f32⟩
  | .hbm, ⟨115, _⟩ => ⟨S1x128, .f32⟩
  | .hbm, ⟨116, _⟩ => ⟨S3200x128, .f32⟩
  | .hbm, ⟨117, _⟩ => ⟨S3200x128, .f32⟩
  | .hbm, ⟨118, _⟩ => ⟨S256x128, .f32⟩
  | .hbm, ⟨119, _⟩ => ⟨S3200x128, .f32⟩
  | .hbm, ⟨120, _⟩ => ⟨S3200x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  slices_S200000x128_S50000x128_0_0 : S200000x128.Slices ![0, 0] S50000x128
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S50000x256_S12500x256_0_0 : S50000x256.Slices ![0, 0] S12500x256
  bcast_S_S125000 : S_.BroadcastsInDim S125000 (![] : Fin 0 → Fin S125000.rank)
  bcast_S125000_S125000x1_0 : S125000.BroadcastsInDim S125000x1 (![0] : Fin 1 → Fin S125000x1.rank)
  bcast_S_S12500x256 : S_.BroadcastsInDim S12500x256 (![] : Fin 0 → Fin S12500x256.rank)
  bcast_S_S125000x1 : S_.BroadcastsInDim S125000x1 (![] : Fin 0 → Fin S125000x1.rank)
  bcast_S_S12500x1 : S_.BroadcastsInDim S12500x1 (![] : Fin 0 → Fin S12500x1.rank)
  bcast_S12500x1_S12500x256_0_1 : S12500x1.BroadcastsInDim S12500x256 (![0, 1] : Fin 2 → Fin S12500x256.rank)
  transposes_S256x256_S256x256_1_0 : S256x256.Transposes [1, 0] S256x256
  bcast_S1x256_S12500x256_0_1 : S1x256.BroadcastsInDim S12500x256 (![0, 1] : Fin 2 → Fin S12500x256.rank)
  slices_S12500x256_S3200x256_0_0 : S12500x256.Slices ![0, 0] S3200x256
  bcast_S_S32000 : S_.BroadcastsInDim S32000 (![] : Fin 0 → Fin S32000.rank)
  bcast_S32000_S32000x1_0 : S32000.BroadcastsInDim S32000x1 (![0] : Fin 1 → Fin S32000x1.rank)
  bcast_S_S3200x256 : S_.BroadcastsInDim S3200x256 (![] : Fin 0 → Fin S3200x256.rank)
  bcast_S_S32000x1 : S_.BroadcastsInDim S32000x1 (![] : Fin 0 → Fin S32000x1.rank)
  bcast_S_S3200x1 : S_.BroadcastsInDim S3200x1 (![] : Fin 0 → Fin S3200x1.rank)
  bcast_S3200x1_S3200x256_0_1 : S3200x1.BroadcastsInDim S3200x256 (![0, 1] : Fin 2 → Fin S3200x256.rank)
  transposes_S128x256_S256x128_1_0 : S128x256.Transposes [1, 0] S256x128
  bcast_S128_S1x128_1 : S128.BroadcastsInDim S1x128 (![1] : Fin 1 → Fin S1x128.rank)
  bcast_S1x128_S3200x128_0_1 : S1x128.BroadcastsInDim S3200x128 (![0, 1] : Fin 2 → Fin S3200x128.rank)
  gather_S200000x128_S500000x1_S500000x128_1_0_n_n_0_1_1128_wf : GatherDims.WF S200000x128 S500000x1 S500000x128 [1] [0] [] [0] [] 1 ![1, 128]
  scatter_S50000x128_S500000x1_S500000x128_1_0_0_1_wf : ScatterDims.WF S50000x128 S500000x1 S500000x128 [1] [0] [0] 1
  scatter_S50000x1_S500000x1_S500000x1_1_0_0_1_wf : ScatterDims.WF S50000x1 S500000x1 S500000x1 [1] [0] [0] 1
  dot_S50000x128_S128x256_S50000x256_1_0_0_1_n_n_wf : DotDims.WF S50000x128 S128x256 S50000x256 [1] [0] [0] [1] [] []
  gather_S50000x256_S125000x1_S125000x256_1_0_n_n_0_1_1256_wf : GatherDims.WF S50000x256 S125000x1 S125000x256 [1] [0] [] [0] [] 1 ![1, 256]
  scatter_S12500x256_S125000x1_S125000x256_1_0_0_1_wf : ScatterDims.WF S12500x256 S125000x1 S125000x256 [1] [0] [0] 1
  scatter_S12500x1_S125000x1_S125000x1_1_0_0_1_wf : ScatterDims.WF S12500x1 S125000x1 S125000x1 [1] [0] [0] 1
  dot_S12500x256_S256x256_S12500x256_1_0_0_1_n_n_wf : DotDims.WF S12500x256 S256x256 S12500x256 [1] [0] [0] [1] [] []
  gather_S12500x256_S32000x1_S32000x256_1_0_n_n_0_1_1256_wf : GatherDims.WF S12500x256 S32000x1 S32000x256 [1] [0] [] [0] [] 1 ![1, 256]
  scatter_S3200x256_S32000x1_S32000x256_1_0_0_1_wf : ScatterDims.WF S3200x256 S32000x1 S32000x256 [1] [0] [0] 1
  scatter_S3200x1_S32000x1_S32000x1_1_0_0_1_wf : ScatterDims.WF S3200x1 S32000x1 S32000x1 [1] [0] [0] 1
  dot_S3200x256_S256x128_S3200x128_1_0_0_1_n_n_wf : DotDims.WF S3200x256 S256x128 S3200x128 [1] [0] [0] [1] [] []

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S125000x1_S125000x256_1_0_n_n_0_1_1256 : GatherDims S50000x256 S125000x1 S125000x256 where
  offsetDims := [1]
  collapsedSliceDims := [0]
  operandBatchingDims := []
  startIndicesBatchingDims := []
  startIndexMap := [0]
  indexVectorDim := 1
  sliceSizes := ![1, 256]
  wf := gather_S50000x256_S125000x1_S125000x256_1_0_n_n_0_1_1256_wf
def scatter_S12500x256_S125000x1_S125000x256_1_0_0_1 : ScatterDims S12500x256 S125000x1 S125000x256 where
  updateWindowDims := [1]
  insertedWindowDims := [0]
  scatterDimsToOperandDims := [0]
  indexVectorDim := 1
  wf := scatter_S12500x256_S125000x1_S125000x256_1_0_0_1_wf
def scatter_S12500x1_S125000x1_S125000x1_1_0_0_1 : ScatterDims S12500x1 S125000x1 S125000x1 where
  updateWindowDims := [1]
  insertedWindowDims := [0]
  scatterDimsToOperandDims := [0]
  indexVectorDim := 1
  wf := scatter_S12500x1_S125000x1_S125000x1_1_0_0_1_wf
def dot_S12500x256_S256x256_S12500x256_1_0_0_1_n_n : DotDims S12500x256 S256x256 S12500x256 where
  lhsContracting := [1]
  rhsContracting := [0]
  lhsNonContracting := [0]
  rhsNonContracting := [1]
  lhsBatch := []
  rhsBatch := []
  wf := dot_S12500x256_S256x256_S12500x256_1_0_0_1_n_n_wf
def gather_S12500x256_S32000x1_S32000x256_1_0_n_n_0_1_1256 : GatherDims S12500x256 S32000x1 S32000x256 where
  offsetDims := [1]
  collapsedSliceDims := [0]
  operandBatchingDims := []
  startIndicesBatchingDims := []
  startIndexMap := [0]
  indexVectorDim := 1
  sliceSizes := ![1, 256]
  wf := gather_S12500x256_S32000x1_S32000x256_1_0_n_n_0_1_1256_wf
def scatter_S3200x256_S32000x1_S32000x256_1_0_0_1 : ScatterDims S3200x256 S32000x1 S32000x256 where
  updateWindowDims := [1]
  insertedWindowDims := [0]
  scatterDimsToOperandDims := [0]
  indexVectorDim := 1
  wf := scatter_S3200x256_S32000x1_S32000x256_1_0_0_1_wf
def scatter_S3200x1_S32000x1_S32000x1_1_0_0_1 : ScatterDims S3200x1 S32000x1 S32000x1 where
  updateWindowDims := [1]
  insertedWindowDims := [0]
  scatterDimsToOperandDims := [0]
  indexVectorDim := 1
  wf := scatter_S3200x1_S32000x1_S32000x1_1_0_0_1_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf

class Facts : Prop extends Facts₀ where

variable [Facts]
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.Dense.lean ====
/-
  One layer of the network, entry by entry, on the extended reals.

  A layer takes the mean of the neighbours' rows `mean`, the target rows `xt`, two weight matrices already laid
  out as `[K, N]` and a bias row, and its entry `(r, s)` is
      Σ_k mean[r, k] · wl[k, s]  +  Σ_k xt[r, k] · wr[k, s]  +  b[s]
  (`lin`), followed in the first two layers by `max · 0`.

  The kernel's block body computes the two products on the matrix unit into zero accumulators, adds them, then adds the
  bias row broadcast over the rows: `(P + Q) + b`. The reference adds the bias to the first product and the second
  product afterwards: `(P + b) + Q`. Addition on the extended reals is commutative and associative with no side
  condition (`⊤ + ⊥ = ⊥` whichever way it is bracketed), so the two are one number: `add_right_comm`. A change of float
  format is the identity on the extended reals, so the roundings to bf16 do not appear.
-/
import proofs.«181353_j16638703305427_1_alg».proof.Proof.LibMatmulPlain
import Idealize.ShloMosaic.Lib.Pipeline.Value
import Idealize.ShloMosaic.Lib.ValueLayout

noncomputable section

open scoped BigOperators
open Idealize.ShloMosaic Idealize.ShloMosaic.ValueIdx

namespace Cert.Sage

variable {M K N : Nat}

/-- Entry `(r, s)` of a layer before its `max · 0`: the two products' entries and the bias entry, summed. -/
def lin (mean xt : (⟨2, ![M, K]⟩ : Shape).Idx → EReal) (wl wr : (⟨2, ![K, N]⟩ : Shape).Idx → EReal)
    (b : (⟨1, ![N]⟩ : Shape).Idx → EReal) (r : Fin M) (s : Fin N) : EReal :=
  (∑ k : Fin K, mean (ix2 r k) * wl (ix2 k s)) + (∑ k : Fin K, xt (ix2 r k) * wr (ix2 k s)) + b (ix1 s)

/-- `lin` only reads row `r` of its two row operands. -/
theorem lin_congr {M' : Nat} (mean xt : (⟨2, ![M, K]⟩ : Shape).Idx → EReal) (mean' xt' : (⟨2, ![M', K]⟩ : Shape).Idx → EReal)
    (wl wr : (⟨2, ![K, N]⟩ : Shape).Idx → EReal) (b : (⟨1, ![N]⟩ : Shape).Idx → EReal) (r : Fin M) (r' : Fin M') (s : Fin N)
    (hm : ∀ k : Fin K, mean (ix2 r k) = mean' (ix2 r' k)) (hx : ∀ k : Fin K, xt (ix2 r k) = xt' (ix2 r' k)) :
    lin mean xt wl wr b r s = lin mean' xt' wl wr b r' s := by
  unfold lin
  simp only [hm, hx]

/-- The bias row as the kernel lays it out — cast to `[1, N]`, cast again, broadcast over `M` rows — read at `(r, s)`. -/
theorem bias_rows_apply (v : FVec Ideal ⟨1, ![N]⟩ .f32) (h1 : (⟨1, ![N]⟩ : Shape).ShapeCasts ⟨2, ![1, N]⟩)
    (h2 : (⟨2, ![1, N]⟩ : Shape).ShapeCasts ⟨2, ![1, N]⟩) (hb : (⟨2, ![1, N]⟩ : Shape).Broadcasts ⟨2, ![M, N]⟩)
    (r : Fin M) (s : Fin N) :
    broadcastTo ⟨2, ![M, N]⟩ (shapeCast ⟨2, ![1, N]⟩ (shapeCast ⟨2, ![1, N]⟩ v h1) h2) hb (ix2 r s) = v (ix1 s) := by
  rw [broadcastTo_1b_ab_apply, shapeCast_self, shapeCast_a_1a_apply]

/-- THE KERNEL'S BLOCK BODY with the closing `max · 0`, read at `(r, s)`. -/
theorem kernel_relu_apply (v0 v3 : FVec Ideal ⟨2, ![M, K]⟩ .f32) (v6 v9 : FVec Ideal ⟨2, ![K, N]⟩ .bf16)
    (v13 : FVec Ideal ⟨1, ![N]⟩ .f32)
    (h0 : (⟨2, ![M, K]⟩ : Shape).ShapeCasts ⟨2, ![M, K]⟩) (h6 : (⟨2, ![K, N]⟩ : Shape).ShapeCasts ⟨2, ![K, N]⟩)
    (h13 : (⟨1, ![N]⟩ : Shape).ShapeCasts ⟨2, ![1, N]⟩) (h14 : (⟨2, ![1, N]⟩ : Shape).ShapeCasts ⟨2, ![1, N]⟩)
    (hb : (⟨2, ![1, N]⟩ : Shape).Broadcasts ⟨2, ![M, N]⟩) (hbits : FTy.bf16.bits < FTy.f32.bits) (r : Fin M) (s : Fin N) :
    maximumf
        (addf
          (addf
            (matmul (DotDims.plain M K N) none (truncf .bf16 (shapeCast ⟨2, ![M, K]⟩ v0 h0) hbits) (shapeCast ⟨2, ![K, N]⟩ v6 h6)
              (constant ⟨2, ![M, N]⟩ .f32 0x00000000#32))
            (matmul (DotDims.plain M K N) none (truncf .bf16 (shapeCast ⟨2, ![M, K]⟩ v3 h0) hbits) (shapeCast ⟨2, ![K, N]⟩ v9 h6)
              (constant ⟨2, ![M, N]⟩ .f32 0x00000000#32)))
          (broadcastTo ⟨2, ![M, N]⟩ (shapeCast ⟨2, ![1, N]⟩ (shapeCast ⟨2, ![1, N]⟩ v13 h13) h14) hb))
        (broadcast ⟨2, ![M, N]⟩ (Scalar.ofBits (F := Ideal) .f32 0x00000000#32) : FVec Ideal ⟨2, ![M, N]⟩ .f32) (ix2 r s)
      = max (lin v0 v3 v6 v9 v13 r s) 0 := by
  simp only [matmul]
  rw [maximumf_apply, addf_apply, addf_apply, bias_rows_apply, Cert.MatmulPlain.matmul_zero_apply,
    Cert.MatmulPlain.matmul_zero_apply]
  simp only [shapeCast_self, truncf_apply]
  show max _ (Ideal.ofBits .f32 0x00000000#32) = _
  rw [Ideal.ofBits_zero_f32]
  rfl

/-- The same body without the closing `max` (the last layer). -/
theorem kernel_lin_apply (v0 v3 : FVec Ideal ⟨2, ![M, K]⟩ .f32) (v6 v9 : FVec Ideal ⟨2, ![K, N]⟩ .bf16)
    (v13 : FVec Ideal ⟨1, ![N]⟩ .f32)
    (h0 : (⟨2, ![M, K]⟩ : Shape).ShapeCasts ⟨2, ![M, K]⟩) (h6 : (⟨2, ![K, N]⟩ : Shape).ShapeCasts ⟨2, ![K, N]⟩)
    (h13 : (⟨1, ![N]⟩ : Shape).ShapeCasts ⟨2, ![1, N]⟩) (h14 : (⟨2, ![1, N]⟩ : Shape).ShapeCasts ⟨2, ![1, N]⟩)
    (hb : (⟨2, ![1, N]⟩ : Shape).Broadcasts ⟨2, ![M, N]⟩) (hbits : FTy.bf16.bits < FTy.f32.bits) (r : Fin M) (s : Fin N) :
    addf
          (addf
            (matmul (DotDims.plain M K N) none (truncf .bf16 (shapeCast ⟨2, ![M, K]⟩ v0 h0) hbits) (shapeCast ⟨2, ![K, N]⟩ v6 h6)
              (constant ⟨2, ![M, N]⟩ .f32 0x00000000#32))
            (matmul (DotDims.plain M K N) none (truncf .bf16 (shapeCast ⟨2, ![M, K]⟩ v3 h0) hbits) (shapeCast ⟨2, ![K, N]⟩ v9 h6)
              (constant ⟨2, ![M, N]⟩ .f32 0x00000000#32)))
          (broadcastTo ⟨2, ![M, N]⟩ (shapeCast ⟨2, ![1, N]⟩ (shapeCast ⟨2, ![1, N]⟩ v13 h13) h14) hb) (ix2 r s)
      = lin v0 v3 v6 v9 v13 r s := by
  simp only [matmul]
  rw [addf_apply, addf_apply, bias_rows_apply, Cert.MatmulPlain.matmul_zero_apply,
    Cert.MatmulPlain.matmul_zero_apply]
  simp only [shapeCast_self, truncf_apply]
  rfl

/-- The bias row as the reference lays it out — `broadcast_in_dim` to `[1, N]`, then over `M` rows — read at `(r, s)`. -/
theorem ref_bias_apply (b : FVec Ideal ⟨1, ![N]⟩ .f32) (d1 : Fin 1 → Fin 2) (d2 : Fin 2 → Fin 2)
    (hd1 : d1 0 = 1) (hd20 : d2 0 = 0) (hd21 : d2 1 = 1)
    (h1 : (⟨1, ![N]⟩ : Shape).BroadcastsInDim ⟨2, ![1, N]⟩ d1) (h2 : (⟨2, ![1, N]⟩ : Shape).BroadcastsInDim ⟨2, ![M, N]⟩ d2)
    (r : Fin M) (s : Fin N) :
    broadcastInDim ⟨2, ![M, N]⟩ d2 h2 (broadcastInDim ⟨2, ![1, N]⟩ d1 h1 b) (ix2 r s) = b (ix1 s) := by
  rw [broadcastInDim_apply d2 h2 _ (ix2 r s) (ix2 (0 : Fin 1) s) (fun a => by
        match a with
        | ⟨0, _⟩ => rfl
        | ⟨1, _⟩ =>
          show s.val = if N = 1 then 0 else ((ix2 r s) (d2 1)).val
          rw [hd21]
          show s.val = if N = 1 then 0 else s.val
          split
          · have := s.isLt; omega
          · rfl),
    broadcastInDim_apply d1 h1 b (ix2 (0 : Fin 1) s) (ix1 s) (fun a => by
        match a with
        | ⟨0, _⟩ =>
          show s.val = if N = 1 then 0 else ((ix2 (0 : Fin 1) s) (d1 0)).val
          rw [hd1]
          show s.val = if N = 1 then 0 else s.val
          split
          · have := s.isLt; omega
          · rfl)]

/-- THE REFERENCE'S LAYER with its `max · 0`, read at `(r, s)`: the bias is added between the two products there, and the
    sum is the kernel's by commutativity and associativity of addition on the extended reals. -/
theorem ref_relu_apply (prec : Option ContractPrecision)
    (mean xt : FVec Ideal ⟨2, ![M, K]⟩ .f32) (wl wr : FVec Ideal ⟨2, ![K, N]⟩ .f32) (b : FVec Ideal ⟨1, ![N]⟩ .f32)
    (d1 : Fin 1 → Fin 2) (d2 : Fin 2 → Fin 2) (hd1 : d1 0 = 1) (hd20 : d2 0 = 0) (hd21 : d2 1 = 1)
    (h1 : (⟨1, ![N]⟩ : Shape).BroadcastsInDim ⟨2, ![1, N]⟩ d1) (h2 : (⟨2, ![1, N]⟩ : Shape).BroadcastsInDim ⟨2, ![M, N]⟩ d2)
    (z : FVec Ideal ⟨2, ![M, N]⟩ .f32) (hz : ∀ i, z i = 0) (r : Fin M) (s : Fin N) :
    maximumf
        (addf
          (addf (Host.dotGeneral (DotDims.plain M K N) prec mean wl)
            (broadcastInDim ⟨2, ![M, N]⟩ d2 h2 (broadcastInDim ⟨2, ![1, N]⟩ d1 h1 b)))
          (Host.dotGeneral (DotDims.plain M K N) prec xt wr))
        z (ix2 r s)
      = max (lin mean xt wl wr b r s) 0 := by
  simp only [Host.dotGeneral]
  rw [maximumf_apply, addf_apply, addf_apply, ref_bias_apply b d1 d2 hd1 hd20 hd21, Cert.MatmulPlain.dotGeneral_apply,
    Cert.MatmulPlain.dotGeneral_apply, hz]
  unfold lin
  rw [add_right_comm]

/-- The reference's last layer (no `max`), read at `(r, s)`. -/
theorem ref_lin_apply (prec : Option ContractPrecision)
    (mean xt : FVec Ideal ⟨2, ![M, K]⟩ .f32) (wl wr : FVec Ideal ⟨2, ![K, N]⟩ .f32) (b : FVec Ideal ⟨1, ![N]⟩ .f32)
    (d1 : Fin 1 → Fin 2) (d2 : Fin 2 → Fin 2) (hd1 : d1 0 = 1) (hd20 : d2 0 = 0) (hd21 : d2 1 = 1)
    (h1 : (⟨1, ![N]⟩ : Shape).BroadcastsInDim ⟨2, ![1, N]⟩ d1) (h2 : (⟨2, ![1, N]⟩ : Shape).BroadcastsInDim ⟨2, ![M, N]⟩ d2)
    (r : Fin M) (s : Fin N) :
    addf
          (addf (Host.dotGeneral (DotDims.plain M K N) prec mean wl)
            (broadcastInDim ⟨2, ![M, N]⟩ d2 h2 (broadcastInDim ⟨2, ![1, N]⟩ d1 h1 b)))
          (Host.dotGeneral (DotDims.plain M K N) prec xt wr) (ix2 r s)
      = lin mean xt wl wr b r s := by
  simp only [Host.dotGeneral]
  rw [addf_apply, addf_apply, ref_bias_apply b d1 d2 hd1 hd20 hd21, Cert.MatmulPlain.dotGeneral_apply,
    Cert.MatmulPlain.dotGeneral_apply]
  unfold lin
  rw [add_right_comm]

/-- A whole layer with its `max · 0`, as one array: entry `i` is `max (lin … (i 0) (i 1)) 0`. -/
def reluLayer (mean xt : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => max (lin mean xt wl wr b (i 0) (i 1)) 0

/-- The last layer as one array: no `max`. -/
def linLayer (mean xt : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => lin mean xt wl wr b (i 0) (i 1)

theorem reluLayer_apply (mean xt : (⟨2, ![M, K]⟩ : Shape).Idx → EReal) (wl wr : (⟨2, ![K, N]⟩ : Shape).Idx → EReal)
    (b : (⟨1, ![N]⟩ : Shape).Idx → EReal) (r : Fin M) (s : Fin N) :
    reluLayer mean xt wl wr b (ix2 r s) = max (lin mean xt wl wr b r s) 0 := rfl

theorem linLayer_apply (mean xt : (⟨2, ![M, K]⟩ : Shape).Idx → EReal) (wl wr : (⟨2, ![K, N]⟩ : Shape).Idx → EReal)
    (b : (⟨1, ![N]⟩ : Shape).Idx → EReal) (r : Fin M) (s : Fin N) :
    linLayer mean xt wl wr b (ix2 r s) = lin mean xt wl wr b r s := rfl

end Cert.Sage

end
-- ==== Proof.Region0.lean ====
/-
  What dense layer 0's pallas_call leaves in its output array.

  The call runs over 25 grid point(s). Point `t` reads rows `[2048 t, 2048 t + 2048)` of the two row operands (the mean
  of the neighbours' rows and the target rows), the two weight matrices and the bias whole, and writes rows
  `[2048 t, 2048 t + 2048)` of the output. Entry `(p, q)` of the block it writes is the layer's entry at row `2048 t + p`,
  column `q`: the body's two products read row `p` of the blocks, which is row `2048 t + p` of the arrays. The blocks tile
  the 51200 rows, so the array ends holding the layer, entry by entry.
-/
import proofs.«181353_j16638703305427_1_alg».proof.Proof.Gen.KernelIdeal.Frame
import proofs.«181353_j16638703305427_1_alg».proof.Proof.Dense

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The block body's stored value at entry `(p, q)`: the layer's entry over the loaded blocks. -/
theorem body_apply (x0 x1 : Vec Ideal S2048x128 .f32) (x2 x3 : Vec Ideal S128x256 .bf16) (x4 : Vec Ideal S256 .f32)
    (p : Fin 2048) (q : Fin 256) :
    k0_pay1 (F := Ideal) x0 x1 x2 x3 x4 (ix2 p q) = max (Cert.Sage.lin x0 x1 x2 x3 x4 p q) 0 := by
  unfold k0_pay1
  exact Cert.Sage.kernel_relu_apply x0 x1 x2 x3 x4 _ _ _ _ _ _ p q

/-- The printed index maps over the grid: the row windows and the output sit at block row `t`, block column 0; the
    weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- ONE POINT, over plain blocks and arrays: if the row blocks are rows `[2048 n, 2048 n + 2048)` of the row arrays and
    the other blocks are their arrays, the body's value at block entry `j` is the layer at the array entry `i` that lies
    `2048 n` rows further down. -/
theorem point (x0 x1 : Vec Ideal S2048x128 .f32) (x2 x3 : Vec Ideal S128x256 .bf16) (x4 : Vec Ideal S256 .f32)
    (a0 a1 : S51200x128.Idx → EReal) (a2 a3 : S128x256.Idx → EReal) (a4 : S256.Idx → EReal)
    (n : Nat) (j : S2048x256.Idx) (i : S51200x256.Idx)
    (hi0 : (i 0).val = n * 2048 + (j 0).val) (hi1 : (i 1).val = (j 1).val)
    (h0 : ∀ (p : Fin 2048) (k : Fin 128) (r : Fin 51200), r.val = n * 2048 + p.val → x0 (ix2 p k) = a0 (ix2 r k))
    (h1 : ∀ (p : Fin 2048) (k : Fin 128) (r : Fin 51200), r.val = n * 2048 + p.val → x1 (ix2 p k) = a1 (ix2 r k))
    (h2 : x2 = a2) (h3 : x3 = a3) (h4 : x4 = a4) :
    k0_pay1 (F := Ideal) x0 x1 x2 x3 x4 j = Cert.Sage.reluLayer a0 a1 a2 a3 a4 i := by
  obtain ⟨p, q, rfl⟩ : ∃ (p : Fin 2048) (q : Fin 256), j = ix2 p q := ⟨j 0, j 1, eq_ix2 j⟩
  obtain ⟨r, s, rfl⟩ : ∃ (r : Fin 51200) (s : Fin 256), i = ix2 r s := ⟨i 0, i 1, eq_ix2 i⟩
  have hs : s = q := Fin.ext hi1
  subst hs
  rw [body_apply, Cert.Sage.reluLayer_apply, h2, h3, h4]
  exact congrArg (max · 0) (Cert.Sage.lin_congr x0 x1 a0 a1 a2 a3 a4 p r s (fun k => h0 p k r hi0) (fun k => h1 p k r hi0))

variable (V : (c : Dev nD) → (b : Ref sig .tc) → Buf (Elt Ideal) ((c : Thread nD τ).loc b))

/-- WHAT POINT `t` WRITES BACK is block `t` of the layer over the arrays as the region finds them. -/
theorem flushed (c : Dev nD) (t : Fin cfg0.N) :
    (dat0 V c).flushed 5 t = ((cfg0.win 5).blk t).view.read (Elt Ideal)
      (Cert.Sage.reluLayer (V c main_v31) (V c main_v32) (V c main_v1) (V c main_v3) (V c main_arg9)) := by
  show (cfg0.win 5).cut (grid0.coords t) ((dat0 V c).after 5 t) = _
  rw [after0_5]
  unfold out0_5
  rw [View.canon_unit_zero zero2]
  simp only [View.ld_unit_zero (S := S2048x128) zero2, View.ld_unit_zero (S := S128x256) zero2, View.ld_unit_zero (S := S256) zero1]
  obtain ⟨e00, e01, e10, e11, e20, e21, e30, e31, e40, e50, e51⟩ := idx_facts t
  funext j
  refine point (iblk0 V c 0 t) (iblk0 V c 1 t) (iblk0 V c 2 t) (iblk0 V c 3 t) (iblk0 V c 4 t)
    (V c main_v31) (V c main_v32) (V c main_v1) (V c main_v3) (V c main_arg9) t.val j (((cfg0.win 5).blk t).view.emb j)
    ?_ ?_ ?_ ?_ ?_ ?_ ?_
  · show win0_5.index t (0 : Fin 2) * 2048 + 1 * (j 0).val = _
    rw [e50]; omega
  · show win0_5.index t (1 : Fin 2) * 256 + 1 * (j 1).val = _
    rw [e51]; omega
  · intro p k r hr
    show V c main_v31 (((cfg0.win 0).blk t).view.emb (ix2 p k)) = V c main_v31 (ix2 r k)
    refine congrArg (V c main_v31) (funext fun a => Fin.ext ?_)
    match a with
    | ⟨0, _⟩ => show win0_0.index t (0 : Fin 2) * 2048 + 1 * p.val = r.val; rw [e00]; omega
    | ⟨1, _⟩ => show win0_0.index t (1 : Fin 2) * 128 + 1 * k.val = k.val; rw [e01]; omega
  · intro p k r hr
    show V c main_v32 (((cfg0.win 1).blk t).view.emb (ix2 p k)) = V c main_v32 (ix2 r k)
    refine congrArg (V c main_v32) (funext fun a => Fin.ext ?_)
    match a with
    | ⟨0, _⟩ => show win0_1.index t (0 : Fin 2) * 2048 + 1 * p.val = r.val; rw [e10]; omega
    | ⟨1, _⟩ => show win0_1.index t (1 : Fin 2) * 128 + 1 * k.val = k.val; rw [e11]; omega
  · funext y
    show V c main_v1 (((cfg0.win 2).blk t).view.emb y) = V c main_v1 y
    refine congrArg (V c main_v1) (funext fun a => Fin.ext ?_)
    match a with
    | ⟨0, _⟩ => show win0_2.index t (0 : Fin 2) * 128 + 1 * (y 0).val = (y 0).val; rw [e20]; omega
    | ⟨1, _⟩ => show win0_2.index t (1 : Fin 2) * 256 + 1 * (y 1).val = (y 1).val; rw [e21]; omega
  · funext y
    show V c main_v3 (((cfg0.win 3).blk t).view.emb y) = V c main_v3 y
    refine congrArg (V c main_v3) (funext fun a => Fin.ext ?_)
    match a with
    | ⟨0, _⟩ => show win0_3.index t (0 : Fin 2) * 128 + 1 * (y 0).val = (y 0).val; rw [e30]; omega
    | ⟨1, _⟩ => show win0_3.index t (1 : Fin 2) * 256 + 1 * (y 1).val = (y 1).val; rw [e31]; omega
  · funext y
    show V c main_arg9 (((cfg0.win 4).blk t).view.emb y) = V c main_arg9 y
    refine congrArg (V c main_arg9) (funext fun a => Fin.ext ?_)
    match a with
    | ⟨0, _⟩ => show win0_4.index t (0 : Fin 1) * 256 + 1 * (y 0).val = (y 0).val; rw [e40]; omega

/-- An index of the output array is in point `t`'s block iff each coordinate is in the block's range on its axis. -/
theorem mem_blk (t : Fin cfg0.N) (i : S51200x256.Idx) :
    i ∈ ((cfg0.win 5).blk t).view.set ↔ ∀ a : Fin 2, win0_5.index t a * S2048x256.size a ≤ (i a).val
      ∧ (i a).val < win0_5.index t a * S2048x256.size a + S2048x256.size a := by
  show i ∈ ((View.whole main_v33).slice (win0_5.rect t)).set ↔ _
  rw [View.set_slice_whole, Rect.mem_set_unit]
  exact Iff.rfl

/-- Every entry of the output array is in some point's block: row `r` in point `r / 2048`. -/
theorem cover (i : S51200x256.Idx) :
    ∃ t : Fin cfg0.N, (cfg0.win 5).flush t = true ∧ i ∈ ((cfg0.win 5).blk t).view.set := by
  have hi0 : (i 0).val < 51200 := (i 0).isLt
  have hi1 : (i 1).val < 256 := (i 1).isLt
  have hN : cfg0.N = 25 := N_0
  refine ⟨⟨(i 0).val / 2048, by rw [hN]; omega⟩, flush0_5 _, ?_⟩
  rw [mem_blk]
  obtain ⟨-, -, -, -, -, -, -, -, -, e50, e51⟩ := idx_facts ⟨(i 0).val / 2048, by rw [hN]; omega⟩
  intro a
  match a with
  | ⟨0, _⟩ =>
    show win0_5.index _ (0 : Fin 2) * 2048 ≤ (i 0).val ∧ (i 0).val < win0_5.index _ (0 : Fin 2) * 2048 + 2048
    rw [e50]; show (i 0).val / 2048 * 2048 ≤ (i 0).val ∧ (i 0).val < (i 0).val / 2048 * 2048 + 2048; omega
  | ⟨1, _⟩ =>
    show win0_5.index _ (1 : Fin 2) * 256 ≤ (i 1).val ∧ (i 1).val < win0_5.index _ (1 : Fin 2) * 256 + 256
    rw [e51]; omega

/-- THE OUTPUT ARRAY after the region: the layer over the arrays the region was entered with. -/
theorem arr (c : Dev nD) : (dat0 V c).arrAt 5 cfg0.N
    = Cert.Sage.reluLayer (V c main_v31) (V c main_v32) (V c main_v1) (V c main_v3) (V c main_arg9) :=
  (dat0 V c).arrAt_eq_of_cover 5 _ (fun t _ => flushed V c t) cover

end Cert.KernelIdeal.Region0

end
-- ==== Proof.Region1.lean ====
/-
  What dense layer 1's pallas_call leaves in its output array.

  The call runs over 7 grid point(s). Point `t` reads rows `[2048 t, 2048 t + 2048)` of the two row operands (the mean
  of the neighbours' rows and the target rows), the two weight matrices and the bias whole, and writes rows
  `[2048 t, 2048 t + 2048)` of the output. Entry `(p, q)` of the block it writes is the layer's entry at row `2048 t + p`,
  column `q`: the body's two products read row `p` of the blocks, which is row `2048 t + p` of the arrays. The blocks tile
  the 14336 rows, so the array ends holding the layer, entry by entry.
-/
import proofs.«181353_j16638703305427_1_alg».proof.Proof.Gen.KernelIdeal.Frame
import proofs.«181353_j16638703305427_1_alg».proof.Proof.Dense

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The block body's stored value at entry `(p, q)`: the layer's entry over the loaded blocks. -/
theorem body_apply (x0 x1 : Vec Ideal S2048x256 .f32) (x2 x3 : Vec Ideal S256x256 .bf16) (x4 : Vec Ideal S256 .f32)
    (p : Fin 2048) (q : Fin 256) :
    k1_pay1 (F := Ideal) x0 x1 x2 x3 x4 (ix2 p q) = max (Cert.Sage.lin x0 x1 x2 x3 x4 p q) 0 := by
  unfold k1_pay1
  exact Cert.Sage.kernel_relu_apply x0 x1 x2 x3 x4 _ _ _ _ _ _ p q

/-- The printed index maps over the grid: the row windows and the output sit at block row `t`, block column 0; the
    weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- ONE POINT, over plain blocks and arrays: if the row blocks are rows `[2048 n, 2048 n + 2048)` of the row arrays and
    the other blocks are their arrays, the body's value at block entry `j` is the layer at the array entry `i` that lies
    `2048 n` rows further down. -/
theorem point (x0 x1 : Vec Ideal S2048x256 .f32) (x2 x3 : Vec Ideal S256x256 .bf16) (x4 : Vec Ideal S256 .f32)
    (a0 a1 : S14336x256.Idx → EReal) (a2 a3 : S256x256.Idx → EReal) (a4 : S256.Idx → EReal)
    (n : Nat) (j : S2048x256.Idx) (i : S14336x256.Idx)
    (hi0 : (i 0).val = n * 2048 + (j 0).val) (hi1 : (i 1).val = (j 1).val)
    (h0 : ∀ (p : Fin 2048) (k : Fin 256) (r : Fin 14336), r.val = n * 2048 + p.val → x0 (ix2 p k) = a0 (ix2 r k))
    (h1 : ∀ (p : Fin 2048) (k : Fin 256) (r : Fin 14336), r.val = n * 2048 + p.val → x1 (ix2 p k) = a1 (ix2 r k))
    (h2 : x2 = a2) (h3 : x3 = a3) (h4 : x4 = a4) :
    k1_pay1 (F := Ideal) x0 x1 x2 x3 x4 j = Cert.Sage.reluLayer a0 a1 a2 a3 a4 i := by
  obtain ⟨p, q, rfl⟩ : ∃ (p : Fin 2048) (q : Fin 256), j = ix2 p q := ⟨j 0, j 1, eq_ix2 j⟩
  obtain ⟨r, s, rfl⟩ : ∃ (r : Fin 14336) (s : Fin 256), i = ix2 r s := ⟨i 0, i 1, eq_ix2 i⟩
  have hs : s = q := Fin.ext hi1
  subst hs
  rw [body_apply, Cert.Sage.reluLayer_apply, h2, h3, h4]
  exact congrArg (max · 0) (Cert.Sage.lin_congr x0 x1 a0 a1 a2 a3 a4 p r s (fun k => h0 p k r hi0) (fun k => h1 p k r hi0))

variable (V : (c : Dev nD) → (b : Ref sig .tc) → Buf (Elt Ideal) ((c : Thread nD τ).loc b))

/-- WHAT POINT `t` WRITES BACK is block `t` of the layer over the arrays as the region finds them. -/
theorem flushed (c : Dev nD) (t : Fin cfg1.N) :
    (dat1 V c).flushed 5 t = ((cfg1.win 5).blk t).view.read (Elt Ideal)
      (Cert.Sage.reluLayer (V c main_v54) (V c main_v55) (V c main_v5) (V c main_v7) (V c main_arg12)) := by
  show (cfg1.win 5).cut (grid1.coords t) ((dat1 V c).after 5 t) = _
  rw [after1_5]
  unfold out1_5
  rw [View.canon_unit_zero zero2]
  simp only [View.ld_unit_zero (S := S2048x256) zero2, View.ld_unit_zero (S := S256x256) zero2, View.ld_unit_zero (S := S256) zero1]
  obtain ⟨e00, e01, e10, e11, e20, e21, e30, e31, e40, e50, e51⟩ := idx_facts t
  funext j
  refine point (iblk1 V c 0 t) (iblk1 V c 1 t) (iblk1 V c 2 t) (iblk1 V c 3 t) (iblk1 V c 4 t)
    (V c main_v54) (V c main_v55) (V c main_v5) (V c main_v7) (V c main_arg12) t.val j (((cfg1.win 5).blk t).view.emb j)
    ?_ ?_ ?_ ?_ ?_ ?_ ?_
  · show win1_5.index t (0 : Fin 2) * 2048 + 1 * (j 0).val = _
    rw [e50]; omega
  · show win1_5.index t (1 : Fin 2) * 256 + 1 * (j 1).val = _
    rw [e51]; omega
  · intro p k r hr
    show V c main_v54 (((cfg1.win 0).blk t).view.emb (ix2 p k)) = V c main_v54 (ix2 r k)
    refine congrArg (V c main_v54) (funext fun a => Fin.ext ?_)
    match a with
    | ⟨0, _⟩ => show win1_0.index t (0 : Fin 2) * 2048 + 1 * p.val = r.val; rw [e00]; omega
    | ⟨1, _⟩ => show win1_0.index t (1 : Fin 2) * 256 + 1 * k.val = k.val; rw [e01]; omega
  · intro p k r hr
    show V c main_v55 (((cfg1.win 1).blk t).view.emb (ix2 p k)) = V c main_v55 (ix2 r k)
    refine congrArg (V c main_v55) (funext fun a => Fin.ext ?_)
    match a with
    | ⟨0, _⟩ => show win1_1.index t (0 : Fin 2) * 2048 + 1 * p.val = r.val; rw [e10]; omega
    | ⟨1, _⟩ => show win1_1.index t (1 : Fin 2) * 256 + 1 * k.val = k.val; rw [e11]; omega
  · funext y
    show V c main_v5 (((cfg1.win 2).blk t).view.emb y) = V c main_v5 y
    refine congrArg (V c main_v5) (funext fun a => Fin.ext ?_)
    match a with
    | ⟨0, _⟩ => show win1_2.index t (0 : Fin 2) * 256 + 1 * (y 0).val = (y 0).val; rw [e20]; omega
    | ⟨1, _⟩ => show win1_2.index t (1 : Fin 2) * 256 + 1 * (y 1).val = (y 1).val; rw [e21]; omega
  · funext y
    show V c main_v7 (((cfg1.win 3).blk t).view.emb y) = V c main_v7 y
    refine congrArg (V c main_v7) (funext fun a => Fin.ext ?_)
    match a with
    | ⟨0, _⟩ => show win1_3.index t (0 : Fin 2) * 256 + 1 * (y 0).val = (y 0).val; rw [e30]; omega
    | ⟨1, _⟩ => show win1_3.index t (1 : Fin 2) * 256 + 1 * (y 1).val = (y 1).val; rw [e31]; omega
  · funext y
    show V c main_arg12 (((cfg1.win 4).blk t).view.emb y) = V c main_arg12 y
    refine congrArg (V c main_arg12) (funext fun a => Fin.ext ?_)
    match a with
    | ⟨0, _⟩ => show win1_4.index t (0 : Fin 1) * 256 + 1 * (y 0).val = (y 0).val; rw [e40]; omega

/-- An index of the output array is in point `t`'s block iff each coordinate is in the block's range on its axis. -/
theorem mem_blk (t : Fin cfg1.N) (i : S14336x256.Idx) :
    i ∈ ((cfg1.win 5).blk t).view.set ↔ ∀ a : Fin 2, win1_5.index t a * S2048x256.size a ≤ (i a).val
      ∧ (i a).val < win1_5.index t a * S2048x256.size a + S2048x256.size a := by
  show i ∈ ((View.whole main_v56).slice (win1_5.rect t)).set ↔ _
  rw [View.set_slice_whole, Rect.mem_set_unit]
  exact Iff.rfl

/-- Every entry of the output array is in some point's block: row `r` in point `r / 2048`. -/
theorem cover (i : S14336x256.Idx) :
    ∃ t : Fin cfg1.N, (cfg1.win 5).flush t = true ∧ i ∈ ((cfg1.win 5).blk t).view.set := by
  have hi0 : (i 0).val < 14336 := (i 0).isLt
  have hi1 : (i 1).val < 256 := (i 1).isLt
  have hN : cfg1.N = 7 := N_1
  refine ⟨⟨(i 0).val / 2048, by rw [hN]; omega⟩, flush1_5 _, ?_⟩
  rw [mem_blk]
  obtain ⟨-, -, -, -, -, -, -, -, -, e50, e51⟩ := idx_facts ⟨(i 0).val / 2048, by rw [hN]; omega⟩
  intro a
  match a with
  | ⟨0, _⟩ =>
    show win1_5.index _ (0 : Fin 2) * 2048 ≤ (i 0).val ∧ (i 0).val < win1_5.index _ (0 : Fin 2) * 2048 + 2048
    rw [e50]; show (i 0).val / 2048 * 2048 ≤ (i 0).val ∧ (i 0).val < (i 0).val / 2048 * 2048 + 2048; omega
  | ⟨1, _⟩ =>
    show win1_5.index _ (1 : Fin 2) * 256 ≤ (i 1).val ∧ (i 1).val < win1_5.index _ (1 : Fin 2) * 256 + 256
    rw [e51]; omega

/-- THE OUTPUT ARRAY after the region: the layer over the arrays the region was entered with. -/
theorem arr (c : Dev nD) : (dat1 V c).arrAt 5 cfg1.N
    = Cert.Sage.reluLayer (V c main_v54) (V c main_v55) (V c main_v5) (V c main_v7) (V c main_arg12) :=
  (dat1 V c).arrAt_eq_of_cover 5 _ (fun t _ => flushed V c t) cover

end Cert.KernelIdeal.Region1

end
-- ==== Proof.Region2.lean ====
/-
  What dense layer 2's pallas_call leaves in its output array.

  The call runs over 1 grid point(s). Point `t` reads rows `[3200 t, 3200 t + 3200)` of the two row operands (the mean
  of the neighbours' rows and the target rows), the two weight matrices and the bias whole, and writes rows
  `[3200 t, 3200 t + 3200)` of the output. Entry `(p, q)` of the block it writes is the layer's entry at row `3200 t + p`,
  column `q`: the body's two products read row `p` of the blocks, which is row `3200 t + p` of the arrays. The blocks tile
  the 3200 rows, so the array ends holding the layer, entry by entry.
-/
import proofs.«181353_j16638703305427_1_alg».proof.Proof.Gen.KernelIdeal.Frame
import proofs.«181353_j16638703305427_1_alg».proof.Proof.Dense

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The block body's stored value at entry `(p, q)`: the layer's entry over the loaded blocks. -/
theorem body_apply (x0 x1 : Vec Ideal S3200x256 .f32) (x2 x3 : Vec Ideal S256x128 .bf16) (x4 : Vec Ideal S128 .f32)
    (p : Fin 3200) (q : Fin 128) :
    k2_pay1 (F := Ideal) x0 x1 x2 x3 x4 (ix2 p q) = Cert.Sage.lin x0 x1 x2 x3 x4 p q := by
  unfold k2_pay1
  exact Cert.Sage.kernel_lin_apply x0 x1 x2 x3 x4 _ _ _ _ _ _ p q

/-- The printed index maps over the grid: the row windows and the output sit at block row `t`, block column 0; the
    weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- ONE POINT, over plain blocks and arrays: if the row blocks are rows `[3200 n, 3200 n + 3200)` of the row arrays and
    the other blocks are their arrays, the body's value at block entry `j` is the layer at the array entry `i` that lies
    `3200 n` rows further down. -/
theorem point (x0 x1 : Vec Ideal S3200x256 .f32) (x2 x3 : Vec Ideal S256x128 .bf16) (x4 : Vec Ideal S128 .f32)
    (a0 a1 : S3200x256.Idx → EReal) (a2 a3 : S256x128.Idx → EReal) (a4 : S128.Idx → EReal)
    (n : Nat) (j : S3200x128.Idx) (i : S3200x128.Idx)
    (hi0 : (i 0).val = n * 3200 + (j 0).val) (hi1 : (i 1).val = (j 1).val)
    (h0 : ∀ (p : Fin 3200) (k : Fin 256) (r : Fin 3200), r.val = n * 3200 + p.val → x0 (ix2 p k) = a0 (ix2 r k))
    (h1 : ∀ (p : Fin 3200) (k : Fin 256) (r : Fin 3200), r.val = n * 3200 + p.val → x1 (ix2 p k) = a1 (ix2 r k))
    (h2 : x2 = a2) (h3 : x3 = a3) (h4 : x4 = a4) :
    k2_pay1 (F := Ideal) x0 x1 x2 x3 x4 j = Cert.Sage.linLayer a0 a1 a2 a3 a4 i := by
  obtain ⟨p, q, rfl⟩ : ∃ (p : Fin 3200) (q : Fin 128), j = ix2 p q := ⟨j 0, j 1, eq_ix2 j⟩
  obtain ⟨r, s, rfl⟩ : ∃ (r : Fin 3200) (s : Fin 128), i = ix2 r s := ⟨i 0, i 1, eq_ix2 i⟩
  have hs : s = q := Fin.ext hi1
  subst hs
  rw [body_apply, Cert.Sage.linLayer_apply, h2, h3, h4]
  exact (Cert.Sage.lin_congr x0 x1 a0 a1 a2 a3 a4 p r s (fun k => h0 p k r hi0) (fun k => h1 p k r hi0))

variable (V : (c : Dev nD) → (b : Ref sig .tc) → Buf (Elt Ideal) ((c : Thread nD τ).loc b))

/-- WHAT POINT `t` WRITES BACK is block `t` of the layer over the arrays as the region finds them. -/
theorem flushed (c : Dev nD) (t : Fin cfg2.N) :
    (dat2 V c).flushed 5 t = ((cfg2.win 5).blk t).view.read (Elt Ideal)
      (Cert.Sage.linLayer (V c main_v75) (V c main_v76) (V c main_v9) (V c main_v11) (V c main_arg15)) := by
  show (cfg2.win 5).cut (grid2.coords t) ((dat2 V c).after 5 t) = _
  rw [after2_5]
  unfold out2_5
  rw [View.canon_unit_zero zero2]
  simp only [View.ld_unit_zero (S := S3200x256) zero2, View.ld_unit_zero (S := S256x128) zero2, View.ld_unit_zero (S := S128) zero1]
  obtain ⟨e00, e01, e10, e11, e20, e21, e30, e31, e40, e50, e51⟩ := idx_facts t
  funext j
  refine point (iblk2 V c 0 t) (iblk2 V c 1 t) (iblk2 V c 2 t) (iblk2 V c 3 t) (iblk2 V c 4 t)
    (V c main_v75) (V c main_v76) (V c main_v9) (V c main_v11) (V c main_arg15) t.val j (((cfg2.win 5).blk t).view.emb j)
    ?_ ?_ ?_ ?_ ?_ ?_ ?_
  · show win2_5.index t (0 : Fin 2) * 3200 + 1 * (j 0).val = _
    rw [e50]; omega
  · show win2_5.index t (1 : Fin 2) * 128 + 1 * (j 1).val = _
    rw [e51]; omega
  · intro p k r hr
    show V c main_v75 (((cfg2.win 0).blk t).view.emb (ix2 p k)) = V c main_v75 (ix2 r k)
    refine congrArg (V c main_v75) (funext fun a => Fin.ext ?_)
    match a with
    | ⟨0, _⟩ => show win2_0.index t (0 : Fin 2) * 3200 + 1 * p.val = r.val; rw [e00]; omega
    | ⟨1, _⟩ => show win2_0.index t (1 : Fin 2) * 256 + 1 * k.val = k.val; rw [e01]; omega
  · intro p k r hr
    show V c main_v76 (((cfg2.win 1).blk t).view.emb (ix2 p k)) = V c main_v76 (ix2 r k)
    refine congrArg (V c main_v76) (funext fun a => Fin.ext ?_)
    match a with
    | ⟨0, _⟩ => show win2_1.index t (0 : Fin 2) * 3200 + 1 * p.val = r.val; rw [e10]; omega
    | ⟨1, _⟩ => show win2_1.index t (1 : Fin 2) * 256 + 1 * k.val = k.val; rw [e11]; omega
  · funext y
    show V c main_v9 (((cfg2.win 2).blk t).view.emb y) = V c main_v9 y
    refine congrArg (V c main_v9) (funext fun a => Fin.ext ?_)
    match a with
    | ⟨0, _⟩ => show win2_2.index t (0 : Fin 2) * 256 + 1 * (y 0).val = (y 0).val; rw [e20]; omega
    | ⟨1, _⟩ => show win2_2.index t (1 : Fin 2) * 128 + 1 * (y 1).val = (y 1).val; rw [e21]; omega
  · funext y
    show V c main_v11 (((cfg2.win 3).blk t).view.emb y) = V c main_v11 y
    refine congrArg (V c main_v11) (funext fun a => Fin.ext ?_)
    match a with
    | ⟨0, _⟩ => show win2_3.index t (0 : Fin 2) * 256 + 1 * (y 0).val = (y 0).val; rw [e30]; omega
    | ⟨1, _⟩ => show win2_3.index t (1 : Fin 2) * 128 + 1 * (y 1).val = (y 1).val; rw [e31]; omega
  · funext y
    show V c main_arg15 (((cfg2.win 4).blk t).view.emb y) = V c main_arg15 y
    refine congrArg (V c main_arg15) (funext fun a => Fin.ext ?_)
    match a with
    | ⟨0, _⟩ => show win2_4.index t (0 : Fin 1) * 128 + 1 * (y 0).val = (y 0).val; rw [e40]; omega

/-- An index of the output array is in point `t`'s block iff each coordinate is in the block's range on its axis. -/
theorem mem_blk (t : Fin cfg2.N) (i : S3200x128.Idx) :
    i ∈ ((cfg2.win 5).blk t).view.set ↔ ∀ a : Fin 2, win2_5.index t a * S3200x128.size a ≤ (i a).val
      ∧ (i a).val < win2_5.index t a * S3200x128.size a + S3200x128.size a := by
  show i ∈ ((View.whole main_v77).slice (win2_5.rect t)).set ↔ _
  rw [View.set_slice_whole, Rect.mem_set_unit]
  exact Iff.rfl

/-- Every entry of the output array is in some point's block: row `r` in point `r / 3200`. -/
theorem cover (i : S3200x128.Idx) :
    ∃ t : Fin cfg2.N, (cfg2.win 5).flush t = true ∧ i ∈ ((cfg2.win 5).blk t).view.set := by
  have hi0 : (i 0).val < 3200 := (i 0).isLt
  have hi1 : (i 1).val < 128 := (i 1).isLt
  have hN : cfg2.N = 1 := N_2
  refine ⟨⟨(i 0).val / 3200, by rw [hN]; omega⟩, flush2_5 _, ?_⟩
  rw [mem_blk]
  obtain ⟨-, -, -, -, -, -, -, -, -, e50, e51⟩ := idx_facts ⟨(i 0).val / 3200, by rw [hN]; omega⟩
  intro a
  match a with
  | ⟨0, _⟩ =>
    show win2_5.index _ (0 : Fin 2) * 3200 ≤ (i 0).val ∧ (i 0).val < win2_5.index _ (0 : Fin 2) * 3200 + 3200
    rw [e50]; show (i 0).val / 3200 * 3200 ≤ (i 0).val ∧ (i 0).val < (i 0).val / 3200 * 3200 + 3200; omega
  | ⟨1, _⟩ =>
    show win2_5.index _ (1 : Fin 2) * 128 ≤ (i 1).val ∧ (i 1).val < win2_5.index _ (1 : Fin 2) * 128 + 128
    rw [e51]; omega

/-- THE OUTPUT ARRAY after the region: the layer over the arrays the region was entered with. -/
theorem arr (c : Dev nD) : (dat2 V c).arrAt 5 cfg2.N
    = Cert.Sage.linLayer (V c main_v75) (V c main_v76) (V c main_v9) (V c main_v11) (V c main_arg15) :=
  (dat2 V c).arrAt_eq_of_cover 5 _ (fun t _ => flushed V c t) cover

end Cert.KernelIdeal.Region2

end
-- ==== Proof.Agg.lean ====
/-
  The neighbourhood mean of each layer as one function.

  Before each dense layer the program gathers the source rows of every edge (a negative source index first wrapped
  by the number of rows), adds them into their target rows, counts the edges of each target row the same way, and
  divides each sum by `max count 1`. The kernel's program and the reference apply the same operations here; the
  proof never looks inside them, so each layer's chain is named once, in the spelling the program prints.
-/
import proofs.«181353_j16638703305427_1_alg».proof.Proof.Gen.KernelIdeal

noncomputable section

namespace Cert.KernelIdeal.Agg

open Cert.KernelIdeal Cert.KernelIdeal.Facts₀ Cert.KernelIdeal.Facts Idealize.ShloMosaic

variable {F : FTy → Type} [FloatOps F]

/-- Layer 0: 500000 edges from 200000 source rows of width 128 into 50000 target rows. -/
def mean0 (x : FVec F S200000x128 .f32) (src dst : IVec S500000 32) : FVec F S50000x128 .f32 :=
  Host.divf
    (Host.scatterAdd scatter_S50000x128_S500000x1_S500000x128_1_0_0_1
      (broadcastInDim S50000x128 ![] bcast_S_S50000x128 (constant S_ .f32 0x00000000#32))
      (broadcastInDim S500000x1 ![0] bcast_S500000_S500000x1_0 dst)
      (Host.gather gather_S200000x128_S500000x1_S500000x128_1_0_n_n_0_1_1128 x
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 200000#32))) src))))
    (broadcastInDim S50000x128 ![0, 1] bcast_S50000x1_S50000x128_0_1
      (maximumf
        (Host.scatterAdd scatter_S50000x1_S500000x1_S500000x1_1_0_0_1
          (broadcastInDim S50000x1 ![] bcast_S_S50000x1 (constant S_ .f32 0x00000000#32))
          (broadcastInDim S500000x1 ![0] bcast_S500000_S500000x1_0 dst)
          (broadcastInDim S500000x1 ![] bcast_S_S500000x1 (constant S_ .f32 0x3F800000#32)))
        (broadcastInDim S50000x1 ![] bcast_S_S50000x1 (constant S_ .f32 0x3F800000#32))))

/-- Layer 1: 125000 edges from 50000 source rows of width 256 into 12500 target rows. -/
def mean1 (x : FVec F S50000x256 .f32) (src dst : IVec S125000 32) : FVec F S12500x256 .f32 :=
  Host.divf
    (Host.scatterAdd scatter_S12500x256_S125000x1_S125000x256_1_0_0_1
      (broadcastInDim S12500x256 ![] bcast_S_S12500x256 (constant S_ .f32 0x00000000#32))
      (broadcastInDim S125000x1 ![0] bcast_S125000_S125000x1_0 dst)
      (Host.gather gather_S50000x256_S125000x1_S125000x256_1_0_n_n_0_1_1256 x
        (broadcastInDim S125000x1 ![0] bcast_S125000_S125000x1_0
          (select (cmpi .slt src (broadcastInDim S125000 ![] bcast_S_S125000 (constantI S_ 32 0#32)))
            (addi src (broadcastInDim S125000 ![] bcast_S_S125000 (constantI S_ 32 50000#32))) src))))
    (broadcastInDim S12500x256 ![0, 1] bcast_S12500x1_S12500x256_0_1
      (maximumf
        (Host.scatterAdd scatter_S12500x1_S125000x1_S125000x1_1_0_0_1
          (broadcastInDim S12500x1 ![] bcast_S_S12500x1 (constant S_ .f32 0x00000000#32))
          (broadcastInDim S125000x1 ![0] bcast_S125000_S125000x1_0 dst)
          (broadcastInDim S125000x1 ![] bcast_S_S125000x1 (constant S_ .f32 0x3F800000#32)))
        (broadcastInDim S12500x1 ![] bcast_S_S12500x1 (constant S_ .f32 0x3F800000#32))))

/-- Layer 2: 32000 edges from 12500 source rows of width 256 into 3200 target rows. -/
def mean2 (x : FVec F S12500x256 .f32) (src dst : IVec S32000 32) : FVec F S3200x256 .f32 :=
  Host.divf
    (Host.scatterAdd scatter_S3200x256_S32000x1_S32000x256_1_0_0_1
      (broadcastInDim S3200x256 ![] bcast_S_S3200x256 (constant S_ .f32 0x00000000#32))
      (broadcastInDim S32000x1 ![0] bcast_S32000_S32000x1_0 dst)
      (Host.gather gather_S12500x256_S32000x1_S32000x256_1_0_n_n_0_1_1256 x
        (broadcastInDim S32000x1 ![0] bcast_S32000_S32000x1_0
          (select (cmpi .slt src (broadcastInDim S32000 ![] bcast_S_S32000 (constantI S_ 32 0#32)))
            (addi src (broadcastInDim S32000 ![] bcast_S_S32000 (constantI S_ 32 12500#32))) src))))
    (broadcastInDim S3200x256 ![0, 1] bcast_S3200x1_S3200x256_0_1
      (maximumf
        (Host.scatterAdd scatter_S3200x1_S32000x1_S32000x1_1_0_0_1
          (broadcastInDim S3200x1 ![] bcast_S_S3200x1 (constant S_ .f32 0x00000000#32))
          (broadcastInDim S32000x1 ![0] bcast_S32000_S32000x1_0 dst)
          (broadcastInDim S32000x1 ![] bcast_S_S32000x1 (constant S_ .f32 0x3F800000#32)))
        (broadcastInDim S3200x1 ![] bcast_S_S3200x1 (constant S_ .f32 0x3F800000#32))))

end Cert.KernelIdeal.Agg

end
-- ==== Proof.Entry0.lean ====
/-
  The buffers at the first pallas_call's entry, as functions of the arguments.

  Four stretches of host operations run before the first pallas_call: the six weight matrices are transposed and rounded,
  layer 0's neighbourhood mean is taken, the first 50000 rows of the features are cut out, and both are padded below to
  51200 rows. Each fact here reads one buffer after those stretches back to the launch contents of the arguments. The
  buffers later layers read (their weights, biases and edge lists) are not written again before their own layer.
-/
import proofs.«181353_j16638703305427_1_alg».proof.Proof.Gen.KernelIdeal.Frame
import proofs.«181353_j16638703305427_1_alg».proof.Proof.Agg
import Idealize.ShloMosaic.PureOps.Ideal

set_option maxRecDepth 16384

noncomputable section

namespace Cert.KernelIdeal.Entry0

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

set_option maxHeartbeats 8000000 in
/-- The padded neighbourhood mean of layer 0. -/
theorem mean (c : Dev nD) : (W4 m ρ c (Proc.devRef .tc main_v31) : FVec Ideal S51200x128 .f32)
    = pad S51200x128 ![0, 0] ![1200, 0] ![0, 0] (Agg.mean0 (F := Ideal) (m ((c : Thread nD τ).loc main_arg0)) (m ((c : Thread nD τ).loc main_arg1)) (m ((c : Thread nD τ).loc main_arg2)))
        (sitofp (F := Ideal) .f32 (constantI S_ 32 0#32)) Facts₀.pads_S50000x128_S51200x128_012000_000 Facts₀.h_S_ := by
  show StableHlo.after hostOps0_3 (StableHlo.after hostOps0_2 (StableHlo.after hostOps0_1 (StableHlo.after hostOps0 (W0 m ρ c))))
    (Proc.devRef .tc main_v31) = _
  after_results_simp <;> rfl

set_option maxHeartbeats 8000000 in
/-- The padded target rows of layer 0: the first 50000 rows of the features. -/
theorem xt (c : Dev nD) : (W4 m ρ c (Proc.devRef .tc main_v32) : FVec Ideal S51200x128 .f32)
    = pad S51200x128 ![0, 0] ![1200, 0] ![0, 0] (extractStridedSlice S50000x128 ![0, 0] (m ((c : Thread nD τ).loc main_arg0)) Facts₀.slices_S200000x128_S50000x128_0_0)
        (sitofp (F := Ideal) .f32 (constantI S_ 32 0#32)) Facts₀.pads_S50000x128_S51200x128_012000_000 Facts₀.h_S_ := by
  show StableHlo.after hostOps0_3 (StableHlo.after hostOps0_2 (StableHlo.after hostOps0_1 (StableHlo.after hostOps0 (W0 m ρ c))))
    (Proc.devRef .tc main_v32) = _
  after_results_simp <;> rfl

set_option maxHeartbeats 8000000 in
/-- Layer 0's neighbour weights, transposed and rounded. -/
theorem wl0 (c : Dev nD) : (W4 m ρ c (Proc.devRef .tc main_v1) : FVec Ideal S128x256 .bf16)
    = truncf (F := Ideal) .bf16 (transpose S128x256 [1, 0] (m ((c : Thread nD τ).loc main_arg7)) Facts₀.transposes_S256x128_S128x256_1_0) Facts₀.bitsLt_bf16_f32 := by
  show StableHlo.after hostOps0_3 (StableHlo.after hostOps0_2 (StableHlo.after hostOps0_1 (StableHlo.after hostOps0 (W0 m ρ c))))
    (Proc.devRef .tc main_v1) = _
  after_results_simp <;> rfl

set_option maxHeartbeats 8000000 in
/-- Layer 0's root weights, transposed and rounded. -/
theorem wr0 (c : Dev nD) : (W4 m ρ c (Proc.devRef .tc main_v3) : FVec Ideal S128x256 .bf16)
    = truncf (F := Ideal) .bf16 (transpose S128x256 [1, 0] (m ((c : Thread nD τ).loc main_arg8)) Facts₀.transposes_S256x128_S128x256_1_0) Facts₀.bitsLt_bf16_f32 := by
  show StableHlo.after hostOps0_3 (StableHlo.after hostOps0_2 (StableHlo.after hostOps0_1 (StableHlo.after hostOps0 (W0 m ρ c))))
    (Proc.devRef .tc main_v3) = _
  after_results_simp <;> rfl

set_option maxHeartbeats 8000000 in
/-- Layer 1's neighbour weights, transposed and rounded. -/
theorem wl1 (c : Dev nD) : (W4 m ρ c (Proc.devRef .tc main_v5) : FVec Ideal S256x256 .bf16)
    = truncf (F := Ideal) .bf16 (transpose S256x256 [1, 0] (m ((c : Thread nD τ).loc main_arg10)) Facts₀.transposes_S256x256_S256x256_1_0) Facts₀.bitsLt_bf16_f32 := by
  show StableHlo.after hostOps0_3 (StableHlo.after hostOps0_2 (StableHlo.after hostOps0_1 (StableHlo.after hostOps0 (W0 m ρ c))))
    (Proc.devRef .tc main_v5) = _
  after_results_simp <;> rfl

set_option maxHeartbeats 8000000 in
/-- Layer 1's root weights, transposed and rounded. -/
theorem wr1 (c : Dev nD) : (W4 m ρ c (Proc.devRef .tc main_v7) : FVec Ideal S256x256 .bf16)
    = truncf (F := Ideal) .bf16 (transpose S256x256 [1, 0] (m ((c : Thread nD τ).loc main_arg11)) Facts₀.transposes_S256x256_S256x256_1_0) Facts₀.bitsLt_bf16_f32 := by
  show StableHlo.after hostOps0_3 (StableHlo.after hostOps0_2 (StableHlo.after hostOps0_1 (StableHlo.after hostOps0 (W0 m ρ c))))
    (Proc.devRef .tc main_v7) = _
  after_results_simp <;> rfl

set_option maxHeartbeats 8000000 in
/-- Layer 2's neighbour weights, transposed and rounded. -/
theorem wl2 (c : Dev nD) : (W4 m ρ c (Proc.devRef .tc main_v9) : FVec Ideal S256x128 .bf16)
    = truncf (F := Ideal) .bf16 (transpose S256x128 [1, 0] (m ((c : Thread nD τ).loc main_arg13)) Facts₀.transposes_S128x256_S256x128_1_0) Facts₀.bitsLt_bf16_f32 := by
  show StableHlo.after hostOps0_3 (StableHlo.after hostOps0_2 (StableHlo.after hostOps0_1 (StableHlo.after hostOps0 (W0 m ρ c))))
    (Proc.devRef .tc main_v9) = _
  after_results_simp <;> rfl

set_option maxHeartbeats 8000000 in
/-- Layer 2's root weights, transposed and rounded. -/
theorem wr2 (c : Dev nD) : (W4 m ρ c (Proc.devRef .tc main_v11) : FVec Ideal S256x128 .bf16)
    = truncf (F := Ideal) .bf16 (transpose S256x128 [1, 0] (m ((c : Thread nD τ).loc main_arg14)) Facts₀.transposes_S128x256_S256x128_1_0) Facts₀.bitsLt_bf16_f32 := by
  show StableHlo.after hostOps0_3 (StableHlo.after hostOps0_2 (StableHlo.after hostOps0_1 (StableHlo.after hostOps0 (W0 m ρ c))))
    (Proc.devRef .tc main_v11) = _
  after_results_simp <;> rfl

set_option maxHeartbeats 8000000 in
/-- Argument 9 is as launched. -/
theorem arg9 (c : Dev nD) : (W4 m ρ c (Proc.devRef .tc main_arg9) : FVec Ideal S256 .f32)
    = (m ((c : Thread nD τ).loc main_arg9)) := by
  show StableHlo.after hostOps0_3 (StableHlo.after hostOps0_2 (StableHlo.after hostOps0_1 (StableHlo.after hostOps0 (W0 m ρ c))))
    (Proc.devRef .tc main_arg9) = _
  after_results_simp <;> rfl

set_option maxHeartbeats 8000000 in
/-- Argument 12 is as launched. -/
theorem arg12 (c : Dev nD) : (W4 m ρ c (Proc.devRef .tc main_arg12) : FVec Ideal S256 .f32)
    = (m ((c : Thread nD τ).loc main_arg12)) := by
  show StableHlo.after hostOps0_3 (StableHlo.after hostOps0_2 (StableHlo.after hostOps0_1 (StableHlo.after hostOps0 (W0 m ρ c))))
    (Proc.devRef .tc main_arg12) = _
  after_results_simp <;> rfl

set_option maxHeartbeats 8000000 in
/-- Argument 15 is as launched. -/
theorem arg15 (c : Dev nD) : (W4 m ρ c (Proc.devRef .tc main_arg15) : FVec Ideal S128 .f32)
    = (m ((c : Thread nD τ).loc main_arg15)) := by
  show StableHlo.after hostOps0_3 (StableHlo.after hostOps0_2 (StableHlo.after hostOps0_1 (StableHlo.after hostOps0 (W0 m ρ c))))
    (Proc.devRef .tc main_arg15) = _
  after_results_simp <;> rfl

set_option maxHeartbeats 8000000 in
/-- Argument 3 is as launched. -/
theorem arg3 (c : Dev nD) : (W4 m ρ c (Proc.devRef .tc main_arg3) : IVec S125000 32)
    = (m ((c : Thread nD τ).loc main_arg3)) := by
  show StableHlo.after hostOps0_3 (StableHlo.after hostOps0_2 (StableHlo.after hostOps0_1 (StableHlo.after hostOps0 (W0 m ρ c))))
    (Proc.devRef .tc main_arg3) = _
  after_results_simp <;> rfl

set_option maxHeartbeats 8000000 in
/-- Argument 4 is as launched. -/
theorem arg4 (c : Dev nD) : (W4 m ρ c (Proc.devRef .tc main_arg4) : IVec S125000 32)
    = (m ((c : Thread nD τ).loc main_arg4)) := by
  show StableHlo.after hostOps0_3 (StableHlo.after hostOps0_2 (StableHlo.after hostOps0_1 (StableHlo.after hostOps0 (W0 m ρ c))))
    (Proc.devRef .tc main_arg4) = _
  after_results_simp <;> rfl

set_option maxHeartbeats 8000000 in
/-- Argument 5 is as launched. -/
theorem arg5 (c : Dev nD) : (W4 m ρ c (Proc.devRef .tc main_arg5) : IVec S32000 32)
    = (m ((c : Thread nD τ).loc main_arg5)) := by
  show StableHlo.after hostOps0_3 (StableHlo.after hostOps0_2 (StableHlo.after hostOps0_1 (StableHlo.after hostOps0 (W0 m ρ c))))
    (Proc.devRef .tc main_arg5) = _
  after_results_simp <;> rfl

set_option maxHeartbeats 8000000 in
/-- Argument 6 is as launched. -/
theorem arg6 (c : Dev nD) : (W4 m ρ c (Proc.devRef .tc main_arg6) : IVec S32000 32)
    = (m ((c : Thread nD τ).loc main_arg6)) := by
  show StableHlo.after hostOps0_3 (StableHlo.after hostOps0_2 (StableHlo.after hostOps0_1 (StableHlo.after hostOps0 (W0 m ρ c))))
    (Proc.devRef .tc main_arg6) = _
  after_results_simp <;> rfl

end Cert.KernelIdeal.Entry0

end
-- ==== Proof.Entry1.lean ====
/-
  The buffers at the second pallas_call's entry, over the contents the first one left.

  Between the first and the second pallas_call the program cuts the first 50000 rows out of the first call's output,
  takes layer 1's neighbourhood mean of them, cuts their first 12500 rows out as the target rows, and pads both below to
  14336 rows. Each fact reads one buffer after those four stretches back to the contents at the first call's exit; the
  weights, biases and edge lists pass through unwritten.
-/
import proofs.«181353_j16638703305427_1_alg».proof.Proof.Gen.KernelIdeal.Frame
import proofs.«181353_j16638703305427_1_alg».proof.Proof.Agg
import Idealize.ShloMosaic.PureOps.Ideal

set_option maxRecDepth 16384

noncomputable section

namespace Cert.KernelIdeal.Entry1

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

set_option maxHeartbeats 8000000 in
/-- The padded neighbourhood mean of layer 1. -/
theorem mean (c : Dev nD) : (W9 m ρ c (Proc.devRef .tc main_v54) : FVec Ideal S14336x256 .f32)
    = pad S14336x256 ![0, 0] ![1836, 0] ![0, 0]
        (Agg.mean1 (F := Ideal) (extractStridedSlice S50000x256 ![0, 0] (W5 m ρ c (Proc.devRef .tc main_v33) : FVec Ideal S51200x256 .f32) Facts₀.slices_S51200x256_S50000x256_0_0)
          (W5 m ρ c (Proc.devRef .tc main_arg3) : IVec S125000 32) (W5 m ρ c (Proc.devRef .tc main_arg4) : IVec S125000 32))
        (sitofp (F := Ideal) .f32 (constantI S_ 32 0#32)) Facts₀.pads_S12500x256_S14336x256_018360_000 Facts₀.h_S_ := by
  show StableHlo.after hostOps1_3 (StableHlo.after hostOps1_2 (StableHlo.after hostOps1_1 (StableHlo.after hostOps1 (W5 m ρ c))))
    (Proc.devRef .tc main_v54) = _
  after_results_simp <;> rfl

set_option maxHeartbeats 8000000 in
/-- The padded target rows of layer 1: the first 12500 rows of layer 0's result. -/
theorem xt (c : Dev nD) : (W9 m ρ c (Proc.devRef .tc main_v55) : FVec Ideal S14336x256 .f32)
    = pad S14336x256 ![0, 0] ![1836, 0] ![0, 0]
        (extractStridedSlice S12500x256 ![0, 0] (extractStridedSlice S50000x256 ![0, 0] (W5 m ρ c (Proc.devRef .tc main_v33) : FVec Ideal S51200x256 .f32) Facts₀.slices_S51200x256_S50000x256_0_0) Facts₀.slices_S50000x256_S12500x256_0_0)
        (sitofp (F := Ideal) .f32 (constantI S_ 32 0#32)) Facts₀.pads_S12500x256_S14336x256_018360_000 Facts₀.h_S_ := by
  show StableHlo.after hostOps1_3 (StableHlo.after hostOps1_2 (StableHlo.after hostOps1_1 (StableHlo.after hostOps1 (W5 m ρ c))))
    (Proc.devRef .tc main_v55) = _
  after_results_simp <;> rfl

set_option maxHeartbeats 8000000 in
/-- `main_v5` is not written between the two calls. -/
theorem keeps_v5 (c : Dev nD) : (W9 m ρ c (Proc.devRef .tc main_v5) : FVec Ideal S256x256 .bf16)
    = (W5 m ρ c (Proc.devRef .tc main_v5) : FVec Ideal S256x256 .bf16) := by
  show StableHlo.after hostOps1_3 (StableHlo.after hostOps1_2 (StableHlo.after hostOps1_1 (StableHlo.after hostOps1 (W5 m ρ c))))
    (Proc.devRef .tc main_v5) = _
  after_results_simp <;> rfl

set_option maxHeartbeats 8000000 in
/-- `main_v7` is not written between the two calls. -/
theorem keeps_v7 (c : Dev nD) : (W9 m ρ c (Proc.devRef .tc main_v7) : FVec Ideal S256x256 .bf16)
    = (W5 m ρ c (Proc.devRef .tc main_v7) : FVec Ideal S256x256 .bf16) := by
  show StableHlo.after hostOps1_3 (StableHlo.after hostOps1_2 (StableHlo.after hostOps1_1 (StableHlo.after hostOps1 (W5 m ρ c))))
    (Proc.devRef .tc main_v7) = _
  after_results_simp <;> rfl

set_option maxHeartbeats 8000000 in
/-- `main_arg12` is not written between the two calls. -/
theorem keeps_arg12 (c : Dev nD) : (W9 m ρ c (Proc.devRef .tc main_arg12) : FVec Ideal S256 .f32)
    = (W5 m ρ c (Proc.devRef .tc main_arg12) : FVec Ideal S256 .f32) := by
  show StableHlo.after hostOps1_3 (StableHlo.after hostOps1_2 (StableHlo.after hostOps1_1 (StableHlo.after hostOps1 (W5 m ρ c))))
    (Proc.devRef .tc main_arg12) = _
  after_results_simp <;> rfl

set_option maxHeartbeats 8000000 in
/-- `main_v9` is not written between the two calls. -/
theorem keeps_v9 (c : Dev nD) : (W9 m ρ c (Proc.devRef .tc main_v9) : FVec Ideal S256x128 .bf16)
    = (W5 m ρ c (Proc.devRef .tc main_v9) : FVec Ideal S256x128 .bf16) := by
  show StableHlo.after hostOps1_3 (StableHlo.after hostOps1_2 (StableHlo.after hostOps1_1 (StableHlo.after hostOps1 (W5 m ρ c))))
    (Proc.devRef .tc main_v9) = _
  after_results_simp <;> rfl

set_option maxHeartbeats 8000000 in
/-- `main_v11` is not written between the two calls. -/
theorem keeps_v11 (c : Dev nD) : (W9 m ρ c (Proc.devRef .tc main_v11) : FVec Ideal S256x128 .bf16)
    = (W5 m ρ c (Proc.devRef .tc main_v11) : FVec Ideal S256x128 .bf16) := by
  show StableHlo.after hostOps1_3 (StableHlo.after hostOps1_2 (StableHlo.after hostOps1_1 (StableHlo.after hostOps1 (W5 m ρ c))))
    (Proc.devRef .tc main_v11) = _
  after_results_simp <;> rfl

set_option maxHeartbeats 8000000 in
/-- `main_arg15` is not written between the two calls. -/
theorem keeps_arg15 (c : Dev nD) : (W9 m ρ c (Proc.devRef .tc main_arg15) : FVec Ideal S128 .f32)
    = (W5 m ρ c (Proc.devRef .tc main_arg15) : FVec Ideal S128 .f32) := by
  show StableHlo.after hostOps1_3 (StableHlo.after hostOps1_2 (StableHlo.after hostOps1_1 (StableHlo.after hostOps1 (W5 m ρ c))))
    (Proc.devRef .tc main_arg15) = _
  after_results_simp <;> rfl

set_option maxHeartbeats 8000000 in
/-- `main_arg5` is not written between the two calls. -/
theorem keeps_arg5 (c : Dev nD) : (W9 m ρ c (Proc.devRef .tc main_arg5) : IVec S32000 32)
    = (W5 m ρ c (Proc.devRef .tc main_arg5) : IVec S32000 32) := by
  show StableHlo.after hostOps1_3 (StableHlo.after hostOps1_2 (StableHlo.after hostOps1_1 (StableHlo.after hostOps1 (W5 m ρ c))))
    (Proc.devRef .tc main_arg5) = _
  after_results_simp <;> rfl

set_option maxHeartbeats 8000000 in
/-- `main_arg6` is not written between the two calls. -/
theorem keeps_arg6 (c : Dev nD) : (W9 m ρ c (Proc.devRef .tc main_arg6) : IVec S32000 32)
    = (W5 m ρ c (Proc.devRef .tc main_arg6) : IVec S32000 32) := by
  show StableHlo.after hostOps1_3 (StableHlo.after hostOps1_2 (StableHlo.after hostOps1_1 (StableHlo.after hostOps1 (W5 m ρ c))))
    (Proc.devRef .tc main_arg6) = _
  after_results_simp <;> rfl

end Cert.KernelIdeal.Entry1

end
-- ==== Proof.Entry2.lean ====
/-
  The buffers at the third pallas_call's entry, over the contents the second one left.

  Between the second and the third pallas_call the program cuts the first 12500 rows out of the second call's output,
  takes layer 2's neighbourhood mean of them, and cuts their first 3200 rows out as the target rows; 3200 is already a
  whole block, so nothing is padded. The weights, the bias and the edge lists pass through unwritten.
-/
import proofs.«181353_j16638703305427_1_alg».proof.Proof.Gen.KernelIdeal.Frame
import proofs.«181353_j16638703305427_1_alg».proof.Proof.Agg
import Idealize.ShloMosaic.PureOps.Ideal

set_option maxRecDepth 16384

noncomputable section

namespace Cert.KernelIdeal.Entry2

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

set_option maxHeartbeats 8000000 in
/-- The neighbourhood mean of layer 2. -/
theorem mean (c : Dev nD) : (W11 m ρ c (Proc.devRef .tc main_v75) : FVec Ideal S3200x256 .f32)
    = Agg.mean2 (F := Ideal) (extractStridedSlice S12500x256 ![0, 0] (W10 m ρ c (Proc.devRef .tc main_v56) : FVec Ideal S14336x256 .f32) Facts₀.slices_S14336x256_S12500x256_0_0)
        (W10 m ρ c (Proc.devRef .tc main_arg5) : IVec S32000 32) (W10 m ρ c (Proc.devRef .tc main_arg6) : IVec S32000 32) := by
  show StableHlo.after hostOps2 (W10 m ρ c)
    (Proc.devRef .tc main_v75) = _
  after_results_simp <;> rfl

set_option maxHeartbeats 8000000 in
/-- The target rows of layer 2: the first 3200 rows of layer 1's result. -/
theorem xt (c : Dev nD) : (W11 m ρ c (Proc.devRef .tc main_v76) : FVec Ideal S3200x256 .f32)
    = extractStridedSlice S3200x256 ![0, 0] (extractStridedSlice S12500x256 ![0, 0] (W10 m ρ c (Proc.devRef .tc main_v56) : FVec Ideal S14336x256 .f32) Facts₀.slices_S14336x256_S12500x256_0_0) Facts₀.slices_S12500x256_S3200x256_0_0 := by
  show StableHlo.after hostOps2 (W10 m ρ c)
    (Proc.devRef .tc main_v76) = _
  after_results_simp <;> rfl

set_option maxHeartbeats 8000000 in
/-- `main_v9` is not written between the two calls. -/
theorem keeps_v9 (c : Dev nD) : (W11 m ρ c (Proc.devRef .tc main_v9) : FVec Ideal S256x128 .bf16)
    = (W10 m ρ c (Proc.devRef .tc main_v9) : FVec Ideal S256x128 .bf16) := by
  show StableHlo.after hostOps2 (W10 m ρ c)
    (Proc.devRef .tc main_v9) = _
  after_results_simp <;> rfl

set_option maxHeartbeats 8000000 in
/-- `main_v11` is not written between the two calls. -/
theorem keeps_v11 (c : Dev nD) : (W11 m ρ c (Proc.devRef .tc main_v11) : FVec Ideal S256x128 .bf16)
    = (W10 m ρ c (Proc.devRef .tc main_v11) : FVec Ideal S256x128 .bf16) := by
  show StableHlo.after hostOps2 (W10 m ρ c)
    (Proc.devRef .tc main_v11) = _
  after_results_simp <;> rfl

set_option maxHeartbeats 8000000 in
/-- `main_arg15` is not written between the two calls. -/
theorem keeps_arg15 (c : Dev nD) : (W11 m ρ c (Proc.devRef .tc main_arg15) : FVec Ideal S128 .f32)
    = (W10 m ρ c (Proc.devRef .tc main_arg15) : FVec Ideal S128 .f32) := by
  show StableHlo.after hostOps2 (W10 m ρ c)
    (Proc.devRef .tc main_arg15) = _
  after_results_simp <;> rfl

end Cert.KernelIdeal.Entry2

end
-- ==== Proof.Bridge.lean ====
/-
  The kernel's layer is the reference's layer, as arrays.

  Kernel side: the row operands are padded below with `P` rows (to a multiple of the block height), the weights are the
  transposed matrices rounded to bf16, the pallas_call computes the layer over all `M + P` rows, and the first `M` rows are
  cut out. Reference side: the layer over the `M` rows, with the transposed weights, the bias added between the two
  products. Entry `(r, s)` of either is `lin` over the unpadded rows: the cut keeps row `r`, row `r` of a padded array is row
  `r` of the array, rounding is the identity on the extended reals, and the order of the three addends does not matter.
-/
import proofs.«181353_j16638703305427_1_alg».proof.Proof.Dense
import Idealize.ShloMosaic.Lib.KernelVsHost

noncomputable section

open scoped BigOperators
open Idealize.ShloMosaic Idealize.ShloMosaic.ValueIdx

namespace Cert.Sage

variable {M Mp P K N : Nat}

/-- Row `r` of an array padded below is row `r` of the array. -/
theorem pad_rows_apply (x : (⟨2, ![M, K]⟩ : Shape).Idx → EReal) {u : Shape} (v : u.Idx → EReal)
    (hp : (⟨2, ![M, K]⟩ : Shape).Pads ![0, 0] ![P, 0] ![0, 0] ⟨2, ![Mp, K]⟩) (hu : 0 < u.numel)
    (r : Fin M) (r' : Fin Mp) (hr : r'.val = r.val) (k : Fin K) :
    pad ⟨2, ![Mp, K]⟩ ![0, 0] ![P, 0] ![0, 0] x v hp hu (ix2 r' k) = x (ix2 r k) :=
  pad_apply_of_inside _ _ _ x v hp hu (ix2 r' k) (ix2 r k) fun a => by
    match a with
    | ⟨0, _⟩ => show r'.val = 0 + r.val * (0 + 1); omega
    | ⟨1, _⟩ => show k.val = 0 + k.val * (0 + 1); omega

/-- A LAYER WITH ITS `max · 0`: the first `M` rows of the kernel's layer over padded rows are the reference's layer. -/
theorem relu_layer_eq (prec : Option ContractPrecision)
    (mean xt : FVec Ideal ⟨2, ![M, K]⟩ .f32) (wl wr : FVec Ideal ⟨2, ![N, K]⟩ .f32) (b : FVec Ideal ⟨1, ![N]⟩ .f32)
    {u u' : Shape} (v : u.Idx → EReal) (v' : u'.Idx → EReal)
    (hp : (⟨2, ![M, K]⟩ : Shape).Pads ![0, 0] ![P, 0] ![0, 0] ⟨2, ![Mp, K]⟩) (hu : 0 < u.numel) (hu' : 0 < u'.numel)
    (ht : (⟨2, ![N, K]⟩ : Shape).Transposes [1, 0] ⟨2, ![K, N]⟩) (hbits : FTy.bf16.bits < FTy.f32.bits)
    (hs : (⟨2, ![Mp, N]⟩ : Shape).Slices ![0, 0] ⟨2, ![M, N]⟩)
    (d1 : Fin 1 → Fin 2) (d2 : Fin 2 → Fin 2) (hd1 : d1 0 = 1) (hd20 : d2 0 = 0) (hd21 : d2 1 = 1)
    (h1 : (⟨1, ![N]⟩ : Shape).BroadcastsInDim ⟨2, ![1, N]⟩ d1) (h2 : (⟨2, ![1, N]⟩ : Shape).BroadcastsInDim ⟨2, ![M, N]⟩ d2)
    (z : FVec Ideal ⟨2, ![M, N]⟩ .f32) (hz : ∀ i, z i = 0) :
    extractStridedSlice ⟨2, ![M, N]⟩ ![0, 0]
        (reluLayer (pad ⟨2, ![Mp, K]⟩ ![0, 0] ![P, 0] ![0, 0] mean v hp hu) (pad ⟨2, ![Mp, K]⟩ ![0, 0] ![P, 0] ![0, 0] xt v' hp hu')
          (truncf .bf16 (transpose ⟨2, ![K, N]⟩ [1, 0] wl ht) hbits) (truncf .bf16 (transpose ⟨2, ![K, N]⟩ [1, 0] wr ht) hbits) b) hs
      = maximumf
          (addf
            (addf (Host.dotGeneral (DotDims.plain M K N) prec mean (transpose ⟨2, ![K, N]⟩ [1, 0] wl ht))
              (broadcastInDim ⟨2, ![M, N]⟩ d2 h2 (broadcastInDim ⟨2, ![1, N]⟩ d1 h1 b)))
            (Host.dotGeneral (DotDims.plain M K N) prec xt (transpose ⟨2, ![K, N]⟩ [1, 0] wr ht)))
          z := by
  funext i
  obtain ⟨r, s, rfl⟩ : ∃ (r : Fin M) (s : Fin N), i = ix2 r s := ⟨i 0, i 1, eq_ix2 i⟩
  have hMp : M ≤ Mp := by
    have h : 0 + M ≤ Mp := hs.2 0
    omega
  rw [ref_relu_apply prec mean xt _ _ b d1 d2 hd1 hd20 hd21 h1 h2 z hz r s,
    slice2_axis0_apply 0 _ hs r s ⟨r.val, Nat.lt_of_lt_of_le r.isLt hMp⟩ (by simp), reluLayer_apply]
  refine congrArg (max · 0) ?_
  exact lin_congr _ _ mean xt _ _ b ⟨r.val, Nat.lt_of_lt_of_le r.isLt hMp⟩ r s
    (fun k => pad_rows_apply mean v hp hu r _ rfl k) (fun k => pad_rows_apply xt v' hp hu' r _ rfl k)

/-- THE LAST LAYER (no padding, no cut, no `max`): the kernel's layer is the reference's. -/
theorem lin_layer_eq (prec : Option ContractPrecision)
    (mean xt : FVec Ideal ⟨2, ![M, K]⟩ .f32) (wl wr : FVec Ideal ⟨2, ![N, K]⟩ .f32) (b : FVec Ideal ⟨1, ![N]⟩ .f32)
    (ht : (⟨2, ![N, K]⟩ : Shape).Transposes [1, 0] ⟨2, ![K, N]⟩) (hbits : FTy.bf16.bits < FTy.f32.bits)
    (d1 : Fin 1 → Fin 2) (d2 : Fin 2 → Fin 2) (hd1 : d1 0 = 1) (hd20 : d2 0 = 0) (hd21 : d2 1 = 1)
    (h1 : (⟨1, ![N]⟩ : Shape).BroadcastsInDim ⟨2, ![1, N]⟩ d1) (h2 : (⟨2, ![1, N]⟩ : Shape).BroadcastsInDim ⟨2, ![M, N]⟩ d2) :
    linLayer mean xt (truncf .bf16 (transpose ⟨2, ![K, N]⟩ [1, 0] wl ht) hbits)
        (truncf .bf16 (transpose ⟨2, ![K, N]⟩ [1, 0] wr ht) hbits) b
      = addf
          (addf (Host.dotGeneral (DotDims.plain M K N) prec mean (transpose ⟨2, ![K, N]⟩ [1, 0] wl ht))
            (broadcastInDim ⟨2, ![M, N]⟩ d2 h2 (broadcastInDim ⟨2, ![1, N]⟩ d1 h1 b)))
          (Host.dotGeneral (DotDims.plain M K N) prec xt (transpose ⟨2, ![K, N]⟩ [1, 0] wr ht)) := by
  funext i
  obtain ⟨r, s, rfl⟩ : ∃ (r : Fin M) (s : Fin N), i = ix2 r s := ⟨i 0, i 1, eq_ix2 i⟩
  rw [ref_lin_apply prec mean xt _ _ b d1 d2 hd1 hd20 hd21 h1 h2 r s, linLayer_apply]
  rfl

/-- The scalar zero broadcast to any shape reads `0` everywhere (the reference's `max · 0` compares against it). -/
theorem bcast_zero_apply {t : Shape} (d : Fin 0 → Fin t.rank) (h : (⟨0, ![]⟩ : Shape).BroadcastsInDim t d) (i : t.Idx) :
    broadcastInDim t d h (constant (F := Ideal) ⟨0, ![]⟩ .f32 0x00000000#32) i = 0 := by
  rw [broadcastInDim_apply d h _ i ix0 (fun a => a.elim0), constant_apply, Ideal.ofBits_zero_f32]

end Cert.Sage

end
-- ==== Proof.KernelValue.lean ====
/-
  The kernel program's result as a function of the arguments: three layers, each in the form the reference computes it.

  `h1` is layer 0's result on its 50000 target rows, `h2` layer 1's on 12500 rows, `out` layer 2's on 3200 rows. A layer's
  result is the reference's tree: the neighbourhood mean times the transposed neighbour weights, plus the bias row, plus
  the target rows times the transposed root weights, then `max · 0` in the first two layers.

  The kernel's program computes each layer with a pallas_call over rows padded to whole blocks and cuts the rows back
  out. The call's output array is the layer over its entry buffers (the region modules); the entry buffers are the padded
  mean, the padded target rows, the rounded transposed weights and the bias (the entry modules); and the cut of that layer
  is the reference's tree (the layer equation). The next layer's mean and target rows are taken from the cut rows by the same
  operations on both sides, so nothing inside the neighbourhood mean is ever opened.
-/
import proofs.«181353_j16638703305427_1_alg».proof.Proof.Region0
import proofs.«181353_j16638703305427_1_alg».proof.Proof.Region1
import proofs.«181353_j16638703305427_1_alg».proof.Proof.Region2
import proofs.«181353_j16638703305427_1_alg».proof.Proof.Entry0
import proofs.«181353_j16638703305427_1_alg».proof.Proof.Entry1
import proofs.«181353_j16638703305427_1_alg».proof.Proof.Entry2
import proofs.«181353_j16638703305427_1_alg».proof.Proof.Bridge
import proofs.«181353_j16638703305427_1_alg».proof.Proof.Gen.ReferenceIdeal

set_option maxRecDepth 16384

noncomputable section

namespace Cert.KernelIdeal.Result

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- Layer 0's result on its 50000 target rows. -/
def h1 (c : Dev nD) : FVec Ideal S50000x256 .f32 :=
  maximumf
    (addf
      (addf
        (Host.dotGeneral (φ₁ := .f32) (φ₂ := .f32) (DotDims.plain 50000 128 256) none (Agg.mean0 (F := Ideal) (m ((c : Thread nD τ).loc main_arg0) : FVec Ideal S200000x128 .f32) (m ((c : Thread nD τ).loc main_arg1) : IVec S500000 32) (m ((c : Thread nD τ).loc main_arg2) : IVec S500000 32))
          (transpose S128x256 [1, 0] (m ((c : Thread nD τ).loc main_arg7) : FVec Ideal S256x128 .f32) Facts₀.transposes_S256x128_S128x256_1_0))
        (broadcastInDim S50000x256 ![0, 1] Cert.ReferenceIdeal.Facts₀.bcast_S1x256_S50000x256_0_1
          (broadcastInDim S1x256 ![1] Cert.ReferenceIdeal.Facts₀.bcast_S256_S1x256_1 (m ((c : Thread nD τ).loc main_arg9) : FVec Ideal S256 .f32))))
      (Host.dotGeneral (φ₁ := .f32) (φ₂ := .f32) (DotDims.plain 50000 128 256) none
        (extractStridedSlice S50000x128 ![0, 0] (m ((c : Thread nD τ).loc main_arg0) : FVec Ideal S200000x128 .f32) Facts₀.slices_S200000x128_S50000x128_0_0)
        (transpose S128x256 [1, 0] (m ((c : Thread nD τ).loc main_arg8) : FVec Ideal S256x128 .f32) Facts₀.transposes_S256x128_S128x256_1_0)))
    (broadcastInDim S50000x256 ![] Cert.ReferenceIdeal.Facts₀.bcast_S_S50000x256 (constant (F := Ideal) S_ .f32 0x00000000#32))

/-- Layer 1's result on its 12500 target rows. -/
def h2 (c : Dev nD) : FVec Ideal S12500x256 .f32 :=
  maximumf
    (addf
      (addf
        (Host.dotGeneral (φ₁ := .f32) (φ₂ := .f32) (DotDims.plain 12500 256 256) none (Agg.mean1 (F := Ideal) (h1 m c) (m ((c : Thread nD τ).loc main_arg3) : IVec S125000 32) (m ((c : Thread nD τ).loc main_arg4) : IVec S125000 32))
          (transpose S256x256 [1, 0] (m ((c : Thread nD τ).loc main_arg10) : FVec Ideal S256x256 .f32) Facts₀.transposes_S256x256_S256x256_1_0))
        (broadcastInDim S12500x256 ![0, 1] Cert.ReferenceIdeal.Facts₀.bcast_S1x256_S12500x256_0_1
          (broadcastInDim S1x256 ![1] Cert.ReferenceIdeal.Facts₀.bcast_S256_S1x256_1 (m ((c : Thread nD τ).loc main_arg12) : FVec Ideal S256 .f32))))
      (Host.dotGeneral (φ₁ := .f32) (φ₂ := .f32) (DotDims.plain 12500 256 256) none
        (extractStridedSlice S12500x256 ![0, 0] (h1 m c) Facts₀.slices_S50000x256_S12500x256_0_0)
        (transpose S256x256 [1, 0] (m ((c : Thread nD τ).loc main_arg11) : FVec Ideal S256x256 .f32) Facts₀.transposes_S256x256_S256x256_1_0)))
    (broadcastInDim S12500x256 ![] Cert.ReferenceIdeal.Facts₀.bcast_S_S12500x256 (constant (F := Ideal) S_ .f32 0x00000000#32))

/-- Layer 2's result on its 3200 target rows: the program's result. -/
def out (c : Dev nD) : FVec Ideal S3200x128 .f32 :=
  addf
    (addf
      (Host.dotGeneral (φ₁ := .f32) (φ₂ := .f32) (DotDims.plain 3200 256 128) none (Agg.mean2 (F := Ideal) (h2 m c) (m ((c : Thread nD τ).loc main_arg5) : IVec S32000 32) (m ((c : Thread nD τ).loc main_arg6) : IVec S32000 32))
        (transpose S256x128 [1, 0] (m ((c : Thread nD τ).loc main_arg13) : FVec Ideal S128x256 .f32) Facts₀.transposes_S128x256_S256x128_1_0))
      (broadcastInDim S3200x128 ![0, 1] Cert.ReferenceIdeal.Facts₀.bcast_S1x128_S3200x128_0_1
        (broadcastInDim S1x128 ![1] Cert.ReferenceIdeal.Facts₀.bcast_S128_S1x128_1 (m ((c : Thread nD τ).loc main_arg15) : FVec Ideal S128 .f32))))
    (Host.dotGeneral (φ₁ := .f32) (φ₂ := .f32) (DotDims.plain 3200 256 128) none
      (extractStridedSlice S3200x256 ![0, 0] (h2 m c) Facts₀.slices_S12500x256_S3200x256_0_0)
      (transpose S256x128 [1, 0] (m ((c : Thread nD τ).loc main_arg14) : FVec Ideal S128x256 .f32) Facts₀.transposes_S128x256_S256x128_1_0))

/-! ## Layer 0 -/

/-- The first call's output array: the layer over the padded rows. -/
theorem exit0 (c : Dev nD) : (W5 m ρ c (Proc.devRef .tc main_v33) : FVec Ideal S51200x256 .f32)
    = Cert.Sage.reluLayer
        (pad S51200x128 ![0, 0] ![1200, 0] ![0, 0] (Agg.mean0 (F := Ideal) (m ((c : Thread nD τ).loc main_arg0) : FVec Ideal S200000x128 .f32) (m ((c : Thread nD τ).loc main_arg1) : IVec S500000 32) (m ((c : Thread nD τ).loc main_arg2) : IVec S500000 32))
          (sitofp (F := Ideal) .f32 (constantI S_ 32 0#32)) Facts₀.pads_S50000x128_S51200x128_012000_000 Facts₀.h_S_)
        (pad S51200x128 ![0, 0] ![1200, 0] ![0, 0] (extractStridedSlice S50000x128 ![0, 0] (m ((c : Thread nD τ).loc main_arg0) : FVec Ideal S200000x128 .f32) Facts₀.slices_S200000x128_S50000x128_0_0)
          (sitofp (F := Ideal) .f32 (constantI S_ 32 0#32)) Facts₀.pads_S50000x128_S51200x128_012000_000 Facts₀.h_S_)
        (truncf (F := Ideal) .bf16 (transpose S128x256 [1, 0] (m ((c : Thread nD τ).loc main_arg7) : FVec Ideal S256x128 .f32) Facts₀.transposes_S256x128_S128x256_1_0) Facts₀.bitsLt_bf16_f32)
        (truncf (F := Ideal) .bf16 (transpose S128x256 [1, 0] (m ((c : Thread nD τ).loc main_arg8) : FVec Ideal S256x128 .f32) Facts₀.transposes_S256x128_S128x256_1_0) Facts₀.bitsLt_bf16_f32)
        (m ((c : Thread nD τ).loc main_arg9) : FVec Ideal S256 .f32) := by
  have e := Region0.arr (V4 m ρ) c
  rw [show (V4 m ρ c main_v31 : FVec Ideal S51200x128 .f32) = _ from Entry0.mean m ρ c,
    show (V4 m ρ c main_v32 : FVec Ideal S51200x128 .f32) = _ from Entry0.xt m ρ c,
    show (V4 m ρ c main_v1 : FVec Ideal S128x256 .bf16) = _ from Entry0.wl0 m ρ c,
    show (V4 m ρ c main_v3 : FVec Ideal S128x256 .bf16) = _ from Entry0.wr0 m ρ c,
    show (V4 m ρ c main_arg9 : FVec Ideal S256 .f32) = _ from Entry0.arg9 m ρ c] at e
  exact (W5_arr m ρ c 5).trans e

/-- Its first 50000 rows are layer 0's result. -/
theorem cut0 (c : Dev nD) :
    extractStridedSlice S50000x256 ![0, 0] (W5 m ρ c (Proc.devRef .tc main_v33) : FVec Ideal S51200x256 .f32)
      Facts₀.slices_S51200x256_S50000x256_0_0 = h1 m c := by
  rw [exit0 m ρ c]
  exact Cert.Sage.relu_layer_eq none _ _ (m ((c : Thread nD τ).loc main_arg7) : FVec Ideal S256x128 .f32) (m ((c : Thread nD τ).loc main_arg8) : FVec Ideal S256x128 .f32) (m ((c : Thread nD τ).loc main_arg9) : FVec Ideal S256 .f32) _ _ Facts₀.pads_S50000x128_S51200x128_012000_000 Facts₀.h_S_ Facts₀.h_S_
    Facts₀.transposes_S256x128_S128x256_1_0 Facts₀.bitsLt_bf16_f32 Facts₀.slices_S51200x256_S50000x256_0_0
    ![1] ![0, 1] rfl rfl rfl Cert.ReferenceIdeal.Facts₀.bcast_S256_S1x256_1 Cert.ReferenceIdeal.Facts₀.bcast_S1x256_S50000x256_0_1 _
    (fun i => Cert.Sage.bcast_zero_apply _ Cert.ReferenceIdeal.Facts₀.bcast_S_S50000x256 i)

/-! ## The buffers later layers read, at their layer's entry -/

theorem at5_arg3 (c : Dev nD) : (W5 m ρ c (Proc.devRef .tc main_arg3) : IVec S125000 32) = (m ((c : Thread nD τ).loc main_arg3) : IVec S125000 32) :=
  (W5_of_ne m ρ c main_arg3 (by decide)).trans (Entry0.arg3 m ρ c)
theorem at5_arg4 (c : Dev nD) : (W5 m ρ c (Proc.devRef .tc main_arg4) : IVec S125000 32) = (m ((c : Thread nD τ).loc main_arg4) : IVec S125000 32) :=
  (W5_of_ne m ρ c main_arg4 (by decide)).trans (Entry0.arg4 m ρ c)
theorem at9_wl1 (c : Dev nD) : (W9 m ρ c (Proc.devRef .tc main_v5) : FVec Ideal S256x256 .bf16)
    = truncf (F := Ideal) .bf16 (transpose S256x256 [1, 0] (m ((c : Thread nD τ).loc main_arg10) : FVec Ideal S256x256 .f32) Facts₀.transposes_S256x256_S256x256_1_0) Facts₀.bitsLt_bf16_f32 :=
  (Entry1.keeps_v5 m ρ c).trans ((W5_of_ne m ρ c main_v5 (by decide)).trans (Entry0.wl1 m ρ c))
theorem at9_wr1 (c : Dev nD) : (W9 m ρ c (Proc.devRef .tc main_v7) : FVec Ideal S256x256 .bf16)
    = truncf (F := Ideal) .bf16 (transpose S256x256 [1, 0] (m ((c : Thread nD τ).loc main_arg11) : FVec Ideal S256x256 .f32) Facts₀.transposes_S256x256_S256x256_1_0) Facts₀.bitsLt_bf16_f32 :=
  (Entry1.keeps_v7 m ρ c).trans ((W5_of_ne m ρ c main_v7 (by decide)).trans (Entry0.wr1 m ρ c))
theorem at9_b1 (c : Dev nD) : (W9 m ρ c (Proc.devRef .tc main_arg12) : FVec Ideal S256 .f32) = (m ((c : Thread nD τ).loc main_arg12) : FVec Ideal S256 .f32) :=
  (Entry1.keeps_arg12 m ρ c).trans ((W5_of_ne m ρ c main_arg12 (by decide)).trans (Entry0.arg12 m ρ c))
theorem at10_arg5 (c : Dev nD) : (W10 m ρ c (Proc.devRef .tc main_arg5) : IVec S32000 32) = (m ((c : Thread nD τ).loc main_arg5) : IVec S32000 32) :=
  (W10_of_ne m ρ c main_arg5 (by decide)).trans ((Entry1.keeps_arg5 m ρ c).trans ((W5_of_ne m ρ c main_arg5 (by decide)).trans (Entry0.arg5 m ρ c)))
theorem at10_arg6 (c : Dev nD) : (W10 m ρ c (Proc.devRef .tc main_arg6) : IVec S32000 32) = (m ((c : Thread nD τ).loc main_arg6) : IVec S32000 32) :=
  (W10_of_ne m ρ c main_arg6 (by decide)).trans ((Entry1.keeps_arg6 m ρ c).trans ((W5_of_ne m ρ c main_arg6 (by decide)).trans (Entry0.arg6 m ρ c)))
theorem at11_wl2 (c : Dev nD) : (W11 m ρ c (Proc.devRef .tc main_v9) : FVec Ideal S256x128 .bf16)
    = truncf (F := Ideal) .bf16 (transpose S256x128 [1, 0] (m ((c : Thread nD τ).loc main_arg13) : FVec Ideal S128x256 .f32) Facts₀.transposes_S128x256_S256x128_1_0) Facts₀.bitsLt_bf16_f32 :=
  (Entry2.keeps_v9 m ρ c).trans ((W10_of_ne m ρ c main_v9 (by decide)).trans ((Entry1.keeps_v9 m ρ c).trans
    ((W5_of_ne m ρ c main_v9 (by decide)).trans (Entry0.wl2 m ρ c))))
theorem at11_wr2 (c : Dev nD) : (W11 m ρ c (Proc.devRef .tc main_v11) : FVec Ideal S256x128 .bf16)
    = truncf (F := Ideal) .bf16 (transpose S256x128 [1, 0] (m ((c : Thread nD τ).loc main_arg14) : FVec Ideal S128x256 .f32) Facts₀.transposes_S128x256_S256x128_1_0) Facts₀.bitsLt_bf16_f32 :=
  (Entry2.keeps_v11 m ρ c).trans ((W10_of_ne m ρ c main_v11 (by decide)).trans ((Entry1.keeps_v11 m ρ c).trans
    ((W5_of_ne m ρ c main_v11 (by decide)).trans (Entry0.wr2 m ρ c))))
theorem at11_b2 (c : Dev nD) : (W11 m ρ c (Proc.devRef .tc main_arg15) : FVec Ideal S128 .f32) = (m ((c : Thread nD τ).loc main_arg15) : FVec Ideal S128 .f32) :=
  (Entry2.keeps_arg15 m ρ c).trans ((W10_of_ne m ρ c main_arg15 (by decide)).trans ((Entry1.keeps_arg15 m ρ c).trans
    ((W5_of_ne m ρ c main_arg15 (by decide)).trans (Entry0.arg15 m ρ c))))

/-! ## Layer 1 -/

/-- The second call's output array: the layer over the padded rows, its mean and target rows taken from layer 0's result. -/
theorem exit1 (c : Dev nD) : (W10 m ρ c (Proc.devRef .tc main_v56) : FVec Ideal S14336x256 .f32)
    = Cert.Sage.reluLayer
        (pad S14336x256 ![0, 0] ![1836, 0] ![0, 0] (Agg.mean1 (F := Ideal) (h1 m c) (m ((c : Thread nD τ).loc main_arg3) : IVec S125000 32) (m ((c : Thread nD τ).loc main_arg4) : IVec S125000 32))
          (sitofp (F := Ideal) .f32 (constantI S_ 32 0#32)) Facts₀.pads_S12500x256_S14336x256_018360_000 Facts₀.h_S_)
        (pad S14336x256 ![0, 0] ![1836, 0] ![0, 0] (extractStridedSlice S12500x256 ![0, 0] (h1 m c) Facts₀.slices_S50000x256_S12500x256_0_0)
          (sitofp (F := Ideal) .f32 (constantI S_ 32 0#32)) Facts₀.pads_S12500x256_S14336x256_018360_000 Facts₀.h_S_)
        (truncf (F := Ideal) .bf16 (transpose S256x256 [1, 0] (m ((c : Thread nD τ).loc main_arg10) : FVec Ideal S256x256 .f32) Facts₀.transposes_S256x256_S256x256_1_0) Facts₀.bitsLt_bf16_f32)
        (truncf (F := Ideal) .bf16 (transpose S256x256 [1, 0] (m ((c : Thread nD τ).loc main_arg11) : FVec Ideal S256x256 .f32) Facts₀.transposes_S256x256_S256x256_1_0) Facts₀.bitsLt_bf16_f32)
        (m ((c : Thread nD τ).loc main_arg12) : FVec Ideal S256 .f32) := by
  have e := Region1.arr (V9 m ρ) c
  rw [show (V9 m ρ c main_v54 : FVec Ideal S14336x256 .f32) = _ from Entry1.mean m ρ c,
    show (V9 m ρ c main_v55 : FVec Ideal S14336x256 .f32) = _ from Entry1.xt m ρ c,
    show (V9 m ρ c main_v5 : FVec Ideal S256x256 .bf16) = _ from at9_wl1 m ρ c,
    show (V9 m ρ c main_v7 : FVec Ideal S256x256 .bf16) = _ from at9_wr1 m ρ c,
    show (V9 m ρ c main_arg12 : FVec Ideal S256 .f32) = _ from at9_b1 m ρ c,
    cut0 m ρ c, at5_arg3 m ρ c, at5_arg4 m ρ c] at e
  exact (W10_arr m ρ c 5).trans e

/-- Its first 12500 rows are layer 1's result. -/
theorem cut1 (c : Dev nD) :
    extractStridedSlice S12500x256 ![0, 0] (W10 m ρ c (Proc.devRef .tc main_v56) : FVec Ideal S14336x256 .f32)
      Facts₀.slices_S14336x256_S12500x256_0_0 = h2 m c := by
  rw [exit1 m ρ c]
  exact Cert.Sage.relu_layer_eq none _ _ (m ((c : Thread nD τ).loc main_arg10) : FVec Ideal S256x256 .f32) (m ((c : Thread nD τ).loc main_arg11) : FVec Ideal S256x256 .f32) (m ((c : Thread nD τ).loc main_arg12) : FVec Ideal S256 .f32) _ _ Facts₀.pads_S12500x256_S14336x256_018360_000 Facts₀.h_S_ Facts₀.h_S_
    Facts₀.transposes_S256x256_S256x256_1_0 Facts₀.bitsLt_bf16_f32 Facts₀.slices_S14336x256_S12500x256_0_0
    ![1] ![0, 1] rfl rfl rfl Cert.ReferenceIdeal.Facts₀.bcast_S256_S1x256_1 Cert.ReferenceIdeal.Facts₀.bcast_S1x256_S12500x256_0_1 _
    (fun i => Cert.Sage.bcast_zero_apply _ Cert.ReferenceIdeal.Facts₀.bcast_S_S12500x256 i)

/-! ## Layer 2: the result -/

/-- THE RESULT BUFFER at the last boundary is layer 2's result. -/
theorem result (c : Dev nD) : (W12 m ρ c (Proc.devRef .tc main_v77) : FVec Ideal S3200x128 .f32) = out m c := by
  have e := Region2.arr (V11 m ρ) c
  rw [show (V11 m ρ c main_v75 : FVec Ideal S3200x256 .f32) = _ from Entry2.mean m ρ c,
    show (V11 m ρ c main_v76 : FVec Ideal S3200x256 .f32) = _ from Entry2.xt m ρ c,
    show (V11 m ρ c main_v9 : FVec Ideal S256x128 .bf16) = _ from at11_wl2 m ρ c,
    show (V11 m ρ c main_v11 : FVec Ideal S256x128 .bf16) = _ from at11_wr2 m ρ c,
    show (V11 m ρ c main_arg15 : FVec Ideal S128 .f32) = _ from at11_b2 m ρ c,
    cut1 m ρ c, at10_arg5 m ρ c, at10_arg6 m ρ c] at e
  refine ((W12_arr m ρ c 5).trans e).trans ?_
  exact Cert.Sage.lin_layer_eq none _ _ (m ((c : Thread nD τ).loc main_arg13) : FVec Ideal S128x256 .f32) (m ((c : Thread nD τ).loc main_arg14) : FVec Ideal S128x256 .f32) (m ((c : Thread nD τ).loc main_arg15) : FVec Ideal S128 .f32) Facts₀.transposes_S128x256_S256x128_1_0 Facts₀.bitsLt_bf16_f32
    ![1] ![0, 1] rfl rfl rfl Cert.ReferenceIdeal.Facts₀.bcast_S128_S1x128_1 Cert.ReferenceIdeal.Facts₀.bcast_S1x128_S3200x128_0_1

end Cert.KernelIdeal.Result

end
-- ==== Proof.RefValue.lean ====
/-
  The reference's result is the same function of the arguments.

  The reference's run ends with its result at one closed term of the arguments: its operations composed. That term is the
  three layers of `Cert.KernelIdeal.Result` (`h1`, `h2`, `out`) written out in full, each layer's neighbourhood mean spelled
  operation by operation. The two programs name their shapes, their dimension records and their side conditions
  separately, but each pair is the same literal data, so once the arguments are identified the two terms are one.
-/
import proofs.«181353_j16638703305427_1_alg».proof.Proof.KernelValue
import proofs.«181353_j16638703305427_1_alg».proof.Proof.Gen.ReferenceIdeal.Run

set_option maxRecDepth 16384

noncomputable section

namespace Cert.ReferenceIdeal.RefValue

open Idealize.ShloMosaic Idealize.ShloMosaic.TcCoe

set_option maxHeartbeats 4000000 in
/-- From memories that agree on the sixteen arguments, the reference's result term is the kernel program's `out`. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    Cert.ReferenceIdeal.Value.res_main_v82 (F := Ideal) m' c = Cert.KernelIdeal.Result.out m c := by
  obtain ⟨e0, e1, e2, e3, e4, e5, e6, e7, e8, e9, e10, e11, e12, e13, e14, e15⟩ := h
  unfold Cert.ReferenceIdeal.Value.res_main_v82
  rw [e0, e1, e2, e3, e4, e5, e6, e7, e8, e9, e10, e11, e12, e13, e14, e15]
  unfold Cert.KernelIdeal.Result.out Cert.KernelIdeal.Result.h2 Cert.KernelIdeal.Result.h1
    Cert.KernelIdeal.Agg.mean2 Cert.KernelIdeal.Agg.mean1 Cert.KernelIdeal.Agg.mean0
  rfl

end Cert.ReferenceIdeal.RefValue

end
-- ==== Proof.lean ====
/-
  Three layers of mean-aggregation graph convolution: the Pallas program against its jnp reference.

  Each layer takes the mean of every target node's in-neighbours' rows (gather, scatter-add, divide by `max count 1`) and
  returns `mean · wlᵀ + b + x_tgt · wrᵀ`, with `max · 0` after the first two layers. The kernel's program does the
  aggregation with the same host operations as the reference and the dense part in a pallas_call per layer, over rows
  padded to whole blocks, with bf16 operands and the bias added last.

  On the extended reals the two agree entry by entry: a change of float format is the identity; the matrix unit's
  product into a zero accumulator and the host's `dot_general` are the same sum over the contracted index; the padded
  rows only feed rows that are cut away; and `(P + Q) + b = (P + b) + Q` because addition there is commutative and
  associative without any finiteness condition. So the precondition is never opened.

  The frames of the two kernel programs are the generated ones; the reference's frame is its generated run with the
  result dropped; the ideal pass rewrote nothing, so `preserves` asks nothing.
-/
import proofs.«181353_j16638703305427_1_alg».proof.Defs
import proofs.«181353_j16638703305427_1_alg».proof.Proof.Gen.Kernel
import proofs.«181353_j16638703305427_1_alg».proof.Proof.Gen.Kernel.Frame
import proofs.«181353_j16638703305427_1_alg».proof.Proof.Gen.KernelIdeal
import proofs.«181353_j16638703305427_1_alg».proof.Proof.Gen.KernelIdeal.Frame
import proofs.«181353_j16638703305427_1_alg».proof.Proof.Gen.ReferenceIdeal
import proofs.«181353_j16638703305427_1_alg».proof.Proof.Gen.ReferenceIdeal.Run
import proofs.«181353_j16638703305427_1_alg».proof.Proof.Gen.Pre_finite_inputs
import proofs.«181353_j16638703305427_1_alg».proof.Proof.KernelRun
import proofs.«181353_j16638703305427_1_alg».proof.Proof.KernelValue
import proofs.«181353_j16638703305427_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `Cert.KernelIdeal.Result.out` of the arguments: the kernel's by its run with
    the result buffer named and the three layers read off it, the reference's by its run and the identity of the terms. -/
theorem algebraic : Cert.algebraic_KernelIdeal_ReferenceIdeal := by
  intro m ρ m' ρ' _ hagree
  refine ⟨fun c => Cert.KernelIdeal.Result.out m c, ?_, ?_⟩
  · exact (θ_run Cert.KernelIdeal.defs _ _).mono
      (fun r h c => ⟨(h c).1.trans (Cert.KernelIdeal.Result.result m ρ c), (h c).2⟩)
      (Cert.KernelIdeal.ResultRun.run_result (F := Ideal) m ρ)
  · exact (θ_run Cert.ReferenceIdeal.defs _ _).mono
      (fun r h c => ⟨(h c).1.trans (Cert.ReferenceIdeal.RefValue.res_eq m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
